-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000000 : Shape := ⟨2, ![16, 1000000]⟩
abbrev S_ : Shape := ⟨0, ![]⟩

class Facts : Prop where
  bcast_S_S16x1000000 : S_.BroadcastsInDim S16x1000000 (![] : Fin 0 → Fin S16x1000000.rank)
  reducesTo_S16x1000000_S_d0_1 : S16x1000000.ReducesTo [0, 1] S_
  h_S_ : 0 < S_.numel

variable [Facts]

def fn_part1 {F : FTy → Type} [FloatOps F] (main_v5 : IVec S16x1000000 32) (main_v14 : IVec S_ 1) (main_v16 : IVec S16x1000000 1) (main_c_4 : IVec S_ 32) : IVec S_ 1 :=
  let main_v17 : IVec S16x1000000 32 := broadcastInDim S16x1000000 ![] bcast_S_S16x1000000 main_c_4
  let main_v18 : IVec S16x1000000 1 := cmpi .sle main_v5 main_v17
  let main_v19 : IVec S16x1000000 1 := andi main_v16 main_v18
  let main_c_5 : IVec S_ 1 := constantI S_ 1 1#1
  let main_v20 : IVec S_ 1 := (fun x v => Host.reduce IntOp.andi x v reducesTo_S16x1000000_S_d0_1 h_S_) main_v19 main_c_5
  let main_v21 : IVec S_ 1 := andi main_v14 main_v20
  main_v21

def fn {F : FTy → Type} [FloatOps F] (main_arg0 : FVec F S16x1000000 .f32) (main_arg1 : FVec F S16x1000000 .f32) (main_arg2 : IVec S16x1000000 1) : IVec S_ 1 :=
  let main_v0 : FVec F S16x1000000 .f32 := subf main_arg0 main_arg1
  let main_v1 : FVec F S16x1000000 .f32 := Host.absf main_v0
  let main_cst : FVec F S_ .f32 := constant S_ .f32 0x41EFFE00#32
  let main_v2 : FVec F S16x1000000 .f32 := broadcastInDim S16x1000000 ![] bcast_S_S16x1000000 main_cst
  let main_v3 : FVec F S16x1000000 .f32 := mulf main_v1 main_v2
  let main_v4 : FVec F S16x1000000 .f32 := Host.floor main_v3
  let main_v5 : IVec S16x1000000 32 := fptosi 32 main_v4
  let main_v6 : FVec F S16x1000000 .f32 := Host.absf main_arg0
  let main_cst_0 : FVec F S_ .f32 := constant S_ .f32 0x7F800000#32
  let main_v7 : FVec F S16x1000000 .f32 := broadcastInDim S16x1000000 ![] bcast_S_S16x1000000 main_cst_0
  let main_v8 : IVec S16x1000000 1 := cmpf .olt main_v6 main_v7
  let main_c : IVec S_ 1 := constantI S_ 1 1#1
  let main_v9 : IVec S_ 1 := (fun x v => Host.reduce IntOp.andi x v reducesTo_S16x1000000_S_d0_1 h_S_) main_v8 main_c
  let main_v10 : FVec F S16x1000000 .f32 := Host.absf main_arg1
  let main_cst_1 : FVec F S_ .f32 := constant S_ .f32 0x7F800000#32
  let main_v11 : FVec F S16x1000000 .f32 := broadcastInDim S16x1000000 ![] bcast_S_S16x1000000 main_cst_1
  let main_v12 : IVec S16x1000000 1 := cmpf .olt main_v10 main_v11
  let main_c_2 : IVec S_ 1 := constantI S_ 1 1#1
  let main_v13 : IVec S_ 1 := (fun x v => Host.reduce IntOp.andi x v reducesTo_S16x1000000_S_d0_1 h_S_) main_v12 main_c_2
  let main_v14 : IVec S_ 1 := andi main_v9 main_v13
  let main_c_3 : IVec S_ 32 := constantI S_ 32 0#32
  let main_v15 : IVec S16x1000000 32 := broadcastInDim S16x1000000 ![] bcast_S_S16x1000000 main_c_3
  let main_v16 : IVec S16x1000000 1 := cmpi .sge main_v5 main_v15
  let main_c_4 : IVec S_ 32 := constantI S_ 32 29#32
  fn_part1 (F := F) main_v5 main_v14 main_v16 main_c_4
-- ==== Kernel.lean ====
abbrev S16x1000000 : Shape := ⟨2, ![16, 1000000]⟩
abbrev S_ : Shape := ⟨0, ![]⟩
abbrev S16x1015808 : Shape := ⟨2, ![16, 1015808]⟩
abbrev S1x128 : Shape := ⟨2, ![1, 128]⟩
abbrev S16x16384 : Shape := ⟨2, ![16, 16384]⟩
abbrev S16 : Shape := ⟨1, ![16]⟩
abbrev S16x1 : Shape := ⟨2, ![16, 1]⟩
abbrev S1 : Shape := ⟨1, ![1]⟩
abbrev S1x1 : Shape := ⟨2, ![1, 1]⟩
abbrev S1x30 : Shape := ⟨2, ![1, 30]⟩
abbrev S30 : Shape := ⟨1, ![30]⟩
abbrev S2 : Shape := ⟨1, ![2]⟩

abbrev nBuf : Space → Nat
  | .hbm => 39
  | .vmem => 12
  | .smem => 0
  | _ => 0

abbrev bufTy : (tb : Table) → Fin (tcTables nBuf tb) → BufTy
  | .hbm, ⟨0, _⟩ => ⟨S16x1000000, .f32⟩
  | .hbm, ⟨1, _⟩ => ⟨S16x1000000, .f32⟩
  | .hbm, ⟨2, _⟩ => ⟨S16x1000000, .i1⟩
  | .hbm, ⟨3, _⟩ => ⟨S_, .i32⟩
  | .hbm, ⟨4, _⟩ => ⟨S_, .f32⟩
  | .hbm, ⟨5, _⟩ => ⟨S16x1015808, .f32⟩
  | .hbm, ⟨6, _⟩ => ⟨S_, .i32⟩
  | .hbm, ⟨7, _⟩ => ⟨S_, .f32⟩
  | .hbm, ⟨8, _⟩ => ⟨S16x1015808, .f32⟩
  | .hbm, ⟨9, _⟩ => ⟨S1x128, .f32⟩
  | .hbm, ⟨10, _⟩ => ⟨S1x30, .f32⟩
  | .hbm, ⟨11, _⟩ => ⟨S30, .f32⟩
  | .hbm, ⟨12, _⟩ => ⟨S16x1000000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S30, .f32⟩
  | .hbm, ⟨17, _⟩ => ⟨S30, .i1⟩
  | .hbm, ⟨18, _⟩ => ⟨S30, .f32⟩
  | .hbm, ⟨19, _⟩ => ⟨S_, .f32⟩
  | .hbm, ⟨20, _⟩ => ⟨S_, .f32⟩
  | .hbm, ⟨21, _⟩ => ⟨S30, .f32⟩
  | .hbm, ⟨22, _⟩ => ⟨S30, .f32⟩
  | .hbm, ⟨23, _⟩ => ⟨S_, .f32⟩
  | .hbm, ⟨24, _⟩ => ⟨S_, .f32⟩
  | .hbm, ⟨25, _⟩ => ⟨S30, .f32⟩
  | .hbm, ⟨26, _⟩ => ⟨S30, .f32⟩
  | .hbm, ⟨27, _⟩ => ⟨S30, .f32⟩
  | .hbm, ⟨28, _⟩ => ⟨S30, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S16x1015808, .f32⟩
  | .hbm, ⟨38, _⟩ => ⟨S16x1000000, .f32⟩
  | .local _ .vmem, ⟨0, _⟩ => ⟨S16x16384, .f32⟩
  | .local _ .vmem, ⟨1, _⟩ => ⟨S16x16384, .f32⟩
  | .local _ .vmem, ⟨2, _⟩ => ⟨S16x16384, .f32⟩
  | .local _ .vmem, ⟨3, _⟩ => ⟨S16x16384, .f32⟩
  | .local _ .vmem, ⟨4, _⟩ => ⟨S1x128, .f32⟩
  | .local _ .vmem, ⟨5, _⟩ => ⟨S16x16384, .f32⟩
  | .local _ .vmem, ⟨6, _⟩ => ⟨S16x16384, .f32⟩
  | .local _ .vmem, ⟨7, _⟩ => ⟨S16x16384, .f32⟩
  | .local _ .vmem, ⟨8, _⟩ => ⟨S16x16384, .f32⟩
  | .local _ .vmem, ⟨9, _⟩ => ⟨S1x128, .f32⟩
  | .local _ .vmem, ⟨10, _⟩ => ⟨S16x16384, .f32⟩
  | .local _ .vmem, ⟨11, _⟩ => ⟨S16x16384, .f32⟩
  | _, _ => ⟨S16x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call2_v0 : Ref sig .tc := ⟨.hbm, 24, rfl⟩
abbrev main_call2_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![62], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S16x1000000_S16x1015808_000_0158080 : S16x1000000.Pads (![0, 0] : Fin 2 → Nat) ![0, 15808] ![0, 0] S16x1015808
  h_S_ : 0 < S_.numel
  inb_S1x128_S1x128_0_0 : ∀ a, (![0, 0] : Fin 2 → Nat) a + S1x128.size a ≤ S1x128.size a
  h_S1x128 : 0 < S1x128.numel
  inb_S16x16384_S16x16384_0_0 : ∀ a, (![0, 0] : Fin 2 → Nat) a + S16x16384.size a ≤ S16x16384.size a
  h_S16x16384 : 0 < S16x16384.numel
  shapeCasts_S16x16384_S16x16384 : S16x16384.ShapeCasts S16x16384
  iota_S16x16384_d1_w32 : S16x16384.Iotas .tc 32 [1]
  iota_S1x128_d1_w32 : S1x128.Iotas .tc 32 [1]
  shapeCasts_S1x128_S1x128 : S1x128.ShapeCasts S1x128
  reduces_S16x16384_S16 : S16x16384.Reduces [1] S16
  shapeCasts_S16_S16x1 : S16.ShapeCasts S16x1
  reduces_S16x1_S1 : S16x1.Reduces [0] S1
  shapeCasts_S1_S1x1 : S1.ShapeCasts S1x1
  broadcasts_S1x1_S1x128 : S1x1.Broadcasts S1x128
  slices_S1x128_S1x30_0_0 : S1x128.Slices ![0, 0] S1x30
  shapeCasts_S1x30_S30 : S1x30.ShapeCasts S30
  reducesTo_S16x1000000_S_d0_1 : S16x1000000.ReducesTo [0, 1] S_
  bcast_S_S30 : S_.BroadcastsInDim S30 (![] : Fin 0 → Fin S30.rank)
  reducesTo_S30_S_d0 : S30.ReducesTo [0] S_
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_0 : ∀ a, (![0, 0] : Fin 2 → Nat) a + S1x1.size a ≤ S1x128.size a
  h_S1x1 : 0 < S1x1.numel
  shapeCasts_S1x1_S1x1 : S1x1.ShapeCasts S1x1
  broadcasts_S1x1_S16x16384 : S1x1.Broadcasts S16x16384
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  inb_S1x128_S1x1_0_10 : ∀ a, (![0, 10] : Fin 2 → Nat) a + S1x1.size a ≤ S1x128.size a
  inb_S1x128_S1x1_0_11 : ∀ a, (![0, 11] : Fin 2 → Nat) a + S1x1.size a ≤ S1x128.size a
  inb_S1x128_S1x1_0_12 : ∀ a, (![0, 12] : Fin 2 → Nat) a + S1x1.size a ≤ S1x128.size a
  inb_S1x128_S1x1_0_13 : ∀ a, (![0, 13] : Fin 2 → Nat) a + S1x1.size a ≤ S1x128.size a
  inb_S1x128_S1x1_0_14 : ∀ a, (![0, 14] : Fin 2 → Nat) a + S1x1.size a ≤ S1x128.size a
  inb_S1x128_S1x1_0_15 : ∀ a, (![0, 15] : Fin 2 → Nat) a + S1x1.size a ≤ S1x128.size a
  inb_S1x128_S1x1_0_16 : ∀ a, (![0, 16] : Fin 2 → Nat) a + S1x1.size a ≤ S1x128.size a
  inb_S1x128_S1x1_0_17 : ∀ a, (![0, 17] : Fin 2 → Nat) a + S1x1.size a ≤ S1x128.size a
  inb_S1x128_S1x1_0_18 : ∀ a, (![0, 18] : Fin 2 → Nat) a + S1x1.size a ≤ S1x128.size a
  inb_S1x128_S1x1_0_19 : ∀ a, (![0, 19] : Fin 2 → Nat) a + S1x1.size a ≤ S1x128.size a
  inb_S1x128_S1x1_0_20 : ∀ a, (![0, 20] : Fin 2 → Nat) a + S1x1.size a ≤ S1x128.size a
  inb_S1x128_S1x1_0_21 : ∀ a, (![0, 21] : Fin 2 → Nat) a + S1x1.size a ≤ S1x128.size a
  inb_S1x128_S1x1_0_22 : ∀ a, (![0, 22] : Fin 2 → Nat) a + S1x1.size a ≤ S1x128.size a
  inb_S1x128_S1x1_0_23 : ∀ a, (![0, 23] : Fin 2 → Nat) a + S1x1.size a ≤ S1x128.size a
  inb_S1x128_S1x1_0_24 : ∀ a, (![0, 24] : Fin 2 → Nat) a + S1x1.size a ≤ S1x128.size a
  inb_S1x128_S1x1_0_25 : ∀ a, (![0, 25] : Fin 2 → Nat) a + S1x1.size a ≤ S1x128.size a
  inb_S1x128_S1x1_0_26 : ∀ a, (![0, 26] : Fin 2 → Nat) a + S1x1.size a ≤ S1x128.size a
  inb_S1x128_S1x1_0_27 : ∀ a, (![0, 27] : Fin 2 → Nat) a + S1x1.size a ≤ S1x128.size a
  inb_S1x128_S1x1_0_28 : ∀ a, (![0, 28] : Fin 2 → Nat) a + S1x1.size a ≤ S1x128.size a
  inb_S1x128_S1x1_0_29 : ∀ a, (![0, 29] : Fin 2 → Nat) a + S1x1.size a ≤ S1x128.size a
  slices_S16x1015808_S16x1000000_0_0 : S16x1015808.Slices ![0, 0] S16x1000000
  scatter_S1x128_S2_S30_0_0_01_0_wf : ScatterDims.WF S1x128 S2 S30 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S16x1015808.size a
  hwx0_0 : ∀ i : grid0.Coords, EltTy.bits .f32 = 32 ∨ (Rect.block (s := S16x1015808) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16384.size a ≤ S16x1015808.size a
  hwx0_1 : ∀ i : grid0.Coords, EltTy.bits .f32 = 32 ∨ (Rect.block (s := S16x1015808) S16x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16384.size a ≤ S16x1015808.size a
  hwx1_0 : ∀ i : grid1.Coords, EltTy.bits .f32 = 32 ∨ (Rect.block (s := S16x1015808) S16x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x16384.size a ≤ S16x1015808.size a
  hwx1_1 : ∀ i : grid1.Coords, EltTy.bits .f32 = 32 ∨ (Rect.block (s := S16x1015808) S16x16384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x16384.size a ≤ S16x1015808.size a
  hwx1_3 : ∀ i : grid1.Coords, EltTy.bits .f32 = 32 ∨ (Rect.block (s := S16x1015808) S16x16384.size (cc1_transform_3 i) (hinb1_3 i)).WholeWords (EltTy.packing .f32)

variable [Facts₀]

def scatter_S1x128_S2_S30_0_0_01_0 : ScatterDims S1x128 S2 S30 where
  updateWindowDims := [0]
  insertedWindowDims := [0]
  scatterDimsToOperandDims := [0, 1]
  indexVectorDim := 0
  wf := scatter_S1x128_S2_S30_0_0_01_0_wf

abbrev win0_0 : Pipeline.Window sig grid0 :=
  Pipeline.Window.ofSpec (Memref.whole main_v0) S16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S16x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S16x16384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x1000000 : Shape := ⟨2, ![16, 1000000]⟩
abbrev S_ : Shape := ⟨0, ![]⟩
abbrev S16000000 : Shape := ⟨1, ![16000000]⟩
abbrev S30 : Shape := ⟨1, ![30]⟩
abbrev S16000000x1 : Shape := ⟨2, ![16000000, 1]⟩
abbrev S16x1000000x1 : Shape := ⟨3, ![16, 1000000, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x1000000, .f32⟩
  | .hbm, ⟨1, _⟩ => ⟨S16x1000000, .f32⟩
  | .hbm, ⟨2, _⟩ => ⟨S16x1000000, .i1⟩
  | .hbm, ⟨3, _⟩ => ⟨S16x1000000, .f32⟩
  | .hbm, ⟨4, _⟩ => ⟨S16x1000000, .f32⟩
  | .hbm, ⟨5, _⟩ => ⟨S_, .f32⟩
  | .hbm, ⟨6, _⟩ => ⟨S16x1000000, .f32⟩
  | .hbm, ⟨7, _⟩ => ⟨S16x1000000, .f32⟩
  | .hbm, ⟨8, _⟩ => ⟨S16x1000000, .f32⟩
  | .hbm, ⟨9, _⟩ => ⟨S16x1000000, .i32⟩
  | .hbm, ⟨10, _⟩ => ⟨S16000000, .i32⟩
  | .hbm, ⟨11, _⟩ => ⟨S_, .f32⟩
  | .hbm, ⟨12, _⟩ => ⟨S16000000, .f32⟩
  | .hbm, ⟨13, _⟩ => ⟨S_, .f32⟩
  | .hbm, ⟨14, _⟩ => ⟨S30, .f32⟩
  | .hbm, ⟨15, _⟩ => ⟨S16000000x1, .i32⟩
  | .hbm, ⟨16, _⟩ => ⟨S30, .f32⟩
  | .hbm, ⟨17, _⟩ => ⟨S16x1000000, .i32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S30, .f32⟩
  | .hbm, ⟨23, _⟩ => ⟨S30, .i1⟩
  | .hbm, ⟨24, _⟩ => ⟨S30, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S30, .f32⟩
  | .hbm, ⟨29, _⟩ => ⟨S30, .f32⟩
  | .hbm, ⟨30, _⟩ => ⟨S_, .f32⟩
  | .hbm, ⟨31, _⟩ => ⟨S30, .f32⟩
  | .hbm, ⟨32, _⟩ => ⟨S30, .f32⟩
  | .hbm, ⟨33, _⟩ => ⟨S30, .f32⟩
  | .hbm, ⟨34, _⟩ => ⟨S30, .f32⟩
  | .hbm, ⟨35, _⟩ => ⟨S_, .i32⟩
  | .hbm, ⟨36, _⟩ => ⟨S16x1000000, .i32⟩
  | .hbm, ⟨37, _⟩ => ⟨S16x1000000, .i1⟩
  | .hbm, ⟨38, _⟩ => ⟨S_, .i32⟩
  | .hbm, ⟨39, _⟩ => ⟨S16x1000000, .i32⟩
  | .hbm, ⟨40, _⟩ => ⟨S16x1000000, .i32⟩
  | .hbm, ⟨41, _⟩ => ⟨S16x1000000, .i32⟩
  | .hbm, ⟨42, _⟩ => ⟨S16x1000000x1, .i32⟩
  | .hbm, ⟨43, _⟩ => ⟨S16x1000000, .f32⟩
  | .hbm, ⟨44, _⟩ => ⟨S_, .f32⟩
  | .hbm, ⟨45, _⟩ => ⟨S_, .f32⟩
  | .hbm, ⟨46, _⟩ => ⟨S16x1000000, .f32⟩
  | .hbm, ⟨47, _⟩ => ⟨S16x1000000, .f32⟩
  | .hbm, ⟨48, _⟩ => ⟨S16x1000000, .f32⟩
  | .hbm, ⟨49, _⟩ => ⟨S16x1000000, .f32⟩
  | .hbm, ⟨50, _⟩ => ⟨S16x1000000, .f32⟩
  | .hbm, ⟨51, _⟩ => ⟨S16x1000000, .f32⟩
  | .hbm, ⟨52, _⟩ => ⟨S_, .f32⟩
  | .hbm, ⟨53, _⟩ => ⟨S16x1000000, .f32⟩
  | .hbm, ⟨54, _⟩ => ⟨S16x1000000, .f32⟩
  | .hbm, ⟨55, _⟩ => ⟨S16x1000000, .f32⟩
  | .hbm, ⟨56, _⟩ => ⟨S16x1000000, .f32⟩
  | .hbm, ⟨57, _⟩ => ⟨S16x1000000, .f32⟩
  | .hbm, ⟨58, _⟩ => ⟨S16x1000000, .f32⟩
  | .hbm, ⟨59, _⟩ => ⟨S16x1000000, .f32⟩
  | .hbm, ⟨60, _⟩ => ⟨S16x1000000, .f32⟩
  | _, _ => ⟨S16x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S_S16x1000000 : S_.BroadcastsInDim S16x1000000 (![] : Fin 0 → Fin S16x1000000.rank)
  shapeCasts_S16x1000000_S16000000 : S16x1000000.ShapeCasts S16000000
  bcast_S_S16000000 : S_.BroadcastsInDim S16000000 (![] : Fin 0 → Fin S16000000.rank)
  bcast_S_S30 : S_.BroadcastsInDim S30 (![] : Fin 0 → Fin S30.rank)
  bcast_S16000000_S16000000x1_0 : S16000000.BroadcastsInDim S16000000x1 (![0] : Fin 1 → Fin S16000000x1.rank)
  natLt_1_32 : 1 < 32
  reducesTo_S16x1000000_S_d0_1 : S16x1000000.ReducesTo [0, 1] S_
  h_S_ : 0 < S_.numel
  reducesTo_S30_S_d0 : S30.ReducesTo [0] S_
  bcast_S16x1000000_S16x1000000x1_0_1 : S16x1000000.BroadcastsInDim S16x1000000x1 (![0, 1] : Fin 2 → Fin S16x1000000x1.rank)
  scatter_S30_S16000000x1_S16000000_n_0_0_1_wf : ScatterDims.WF S30 S16000000x1 S16000000 [] [0] [0] 1
  gather_S30_S16x1000000x1_S16x1000000_n_0_n_n_0_2_1_wf : GatherDims.WF S30 S16x1000000x1 S16x1000000 [] [0] [] [0] [] 2 ![1]

variable [Facts₀]

def scatter_S30_S16000000x1_S16000000_n_0_0_1 : ScatterDims S30 S16000000x1 S16000000 where
  updateWindowDims := []
  insertedWindowDims := [0]
  scatterDimsToOperandDims := [0]
  indexVectorDim := 1
  wf := scatter_S30_S16000000x1_S16000000_n_0_0_1_wf
def gather_S30_S16x1000000x1_S16x1000000_n_0_n_n_0_2_1 : GatherDims S30 S16x1000000x1 S16x1000000 where
  offsetDims := []
  collapsedSliceDims := [0]
  operandBatchingDims := []
  startIndicesBatchingDims := []
  startIndexMap := [0]
  indexVectorDim := 2
  sliceSizes := ![1]
  wf := gather_S30_S16x1000000x1_S16x1000000_n_0_n_n_0_2_1_wf

class Facts : Prop extends Facts₀ where

variable [Facts]
-- ==== Proof.Spec.lean ====
/-
  The mathematics both programs compute, over the extended reals.

  Every element (r, k) of the two [16, 1000000] inputs has a BIN: the 32-bit integer ⌊|p − g| · (30 − 2⁻¹⁰)⌋.
  The histogram counts, per bin b < 30, the elements whose bin is b; `nonEmpty` counts the bins that are not
  empty; the weight of bin b is (number of set mask bits) / max(2⁻¹⁰, hist b · nonEmpty); and the result at an
  element is its binary cross-entropy times the weight of its bin.
  The statement holds where every bin lies in 0 … 29 (`InRange`): the reference's comment says so, and outside
  that range the reference indexes its 30-entry tables out of range.
-/
import Idealize.ShloMosaic.PureOps.Ideal
import Idealize.ShloMosaic.Lib.ValueIdx

noncomputable section

namespace Cert.Spec

open Idealize.ShloMosaic Idealize.ShloMosaic.ValueIdx

/-- The inputs' shape. -/
abbrev SA : Shape := ⟨2, ![16, 1000000]⟩

/-- An extended real, as the ideal instance's f32. -/
abbrev E : Type := Ideal .f32

/-- The literals of both programs, as the extended reals their words denote. -/
def zeroW : E := FloatOps.ofBits (F := Ideal) .f32 0x00000000#32
def oneW : E := FloatOps.ofBits (F := Ideal) .f32 0x3F800000#32
def scaleW : E := FloatOps.ofBits (F := Ideal) .f32 0x41EFFE00#32
def epsW : E := FloatOps.ofBits (F := Ideal) .f32 0x3A800000#32
def hiW : E := FloatOps.ofBits (F := Ideal) .f32 0x3F7FC000#32

/-- The bin of one element: ⌊|p − g| · scale⌋ converted to a signed 32-bit integer. -/
def binW (p g : E) : BitVec 32 :=
  FloatOps.fptosi (F := Ideal) 32 (FloatOps.floor (F := Ideal) (FloatOps.mulf (F := Ideal) (FloatOps.absf (F := Ideal) (FloatOps.subf (F := Ideal) p g)) scaleW))

/-- A bin that indexes the 30-entry tables: 0 ≤ w ≤ 29, read signed. -/
def InRange (w : BitVec 32) : Prop := 0 ≤ w.toInt ∧ w.toInt ≤ 29

/-- The table index of a bin: read signed, negative to 0, clamped to 29. -/
def binIdx (w : BitVec 32) : Fin 30 := ⟨min w.toInt.toNat 29, by omega⟩

/-- How many elements fall in bin b (each counted as the literal one). -/
def hist (P G : SA.Idx → E) (b : Fin 30) : E :=
  ∑ i : SA.Idx, if (binW (P i) (G i)).toInt = (b.val : Int) then oneW else 0

/-- How many mask bits are set. -/
def maskCount (M : SA.Idx → BitVec 1) : E := ∑ i : SA.Idx, (((M i).toNat : ℝ) : EReal)

/-- How many bins are not empty. -/
def nonEmpty (h : Fin 30 → E) : E := ∑ b : Fin 30, (((Ideal.cmp .ogt (h b) zeroW).toNat : ℝ) : EReal)

/-- The weight of bin b. -/
def weight (P G : SA.Idx → E) (M : SA.Idx → BitVec 1) (b : Fin 30) : E :=
  Ideal.div (maskCount M) (max epsW (hist P G b * nonEmpty (hist P G)))

/-- The clipped probability. -/
def clipP (p : E) : E := min hiW (max epsW p)

/-- The binary cross-entropy of one element. -/
def bce (p g : E) : E := -(g * Ideal.log (clipP p) + (oneW - g) * Ideal.log1p (-(clipP p)))

/-- The result: the element's cross-entropy times the weight of its bin. -/
def result (P G : SA.Idx → E) (M : SA.Idx → BitVec 1) : SA.Idx → E :=
  fun i => bce (P i) (G i) * weight P G M (binIdx (binW (P i) (G i)))

end Cert.Spec

end
-- ==== Proof.KDefs.lean ====
/-
  The kernel program's host operations as functions of the arrays they read, and the terms the two kernels'
  values are stated in: the zero-padded copies of the inputs, the 30 weights and their [1, 128] table computed from
  the histogram array, an element of a column block of a padded array, the clipped bin, and one element's term of
  the histogram kernel's count.
-/
import proofs.«161003_j88261577933232_1_alg».proof.Proof.Gen.KernelIdeal.Frame
import proofs.«161003_j88261577933232_1_alg».proof.Proof.Spec

noncomputable section

namespace Cert.KernelIdeal.KV

open Cert.KernelIdeal Cert.KernelIdeal.Facts₀ Cert.KernelIdeal.Facts
open Idealize.ShloMosaic Idealize.ShloMosaic.ValueIdx Cert.Spec

/-- The input with 15808 more columns, all the converted integer zero. -/
def padOf (X : FVec Ideal S16x1000000 .f32) : FVec Ideal S16x1015808 .f32 :=
  pad S16x1015808 ![0, 0] ![0, 15808] ![0, 0] X (sitofp (F := Ideal) .f32 (constantI S_ 32 0#32))
    pads_S16x1000000_S16x1015808_000_0158080 h_S_

/-- The first 30 lanes of the histogram array, as a vector. -/
def lanesOf (H : FVec Ideal S1x128 .f32) : FVec Ideal S30 .f32 :=
  shapeCast S30 (extractStridedSlice S1x30 ![0, 0] H slices_S1x128_S1x30_0_0) shapeCasts_S1x30_S30

/-- The number of set mask bits, summed as floats. -/
def maskSum (M : IVec S16x1000000 1) : FVec Ideal S_ .f32 :=
  Host.reduceAdd (F := Ideal) (uitofp (F := Ideal) .f32 M) (constant (F := Ideal) S_ .f32 0x00000000#32) reducesTo_S16x1000000_S_d0_1 h_S_

/-- The number of non-empty bins, summed as floats. -/
def nonEmptySum (h : FVec Ideal S30 .f32) : FVec Ideal S_ .f32 :=
  Host.reduceAdd (F := Ideal) (uitofp (F := Ideal) .f32 (cmpf (F := Ideal) .ogt h (broadcastInDim S30 ![] bcast_S_S30 (constant (F := Ideal) S_ .f32 0x00000000#32))))
    (constant (F := Ideal) S_ .f32 0x00000000#32) reducesTo_S30_S_d0 h_S_

/-- The 30 weights: the mask count over max(2⁻¹⁰, lanes · non-empty count). -/
def weightsOf (H : FVec Ideal S1x128 .f32) (M : IVec S16x1000000 1) : FVec Ideal S30 .f32 :=
  Host.divf (F := Ideal) (broadcastInDim S30 ![] bcast_S_S30 (maskSum M))
    (maximumf (F := Ideal) (broadcastInDim S30 ![] bcast_S_S30 (constant (F := Ideal) S_ .f32 0x3A800000#32))
      (mulf (F := Ideal) (lanesOf H) (broadcastInDim S30 ![] bcast_S_S30 (nonEmptySum (lanesOf H)))))

/-- The weights written into the first 30 lanes of a [1, 128] table of zeros. -/
def tableOf (H : FVec Ideal S1x128 .f32) (M : IVec S16x1000000 1) : FVec Ideal S1x128 .f32 :=
  Host.scatter scatter_S1x128_S2_S30_0_0_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (weightsOf H M)

/-- The result's columns: the first 1000000 of the padded loss array. -/
def sliceOf (L : FVec Ideal S16x1015808 .f32) : FVec Ideal S16x1000000 .f32 :=
  extractStridedSlice S16x1000000 ![0, 0] L slices_S16x1015808_S16x1000000_0_0

/-- The array index of element y of column block s (62 blocks of 16384 columns). -/
def padIdx (s : Fin 62) (y : S16x16384.Idx) : S16x1015808.Idx :=
  ix2 (⟨(y 0).val, (y 0).isLt⟩ : Fin 16) (⟨s.val * 16384 + (y 1).val, by have := (y 1).isLt; have h : (y 1).val < 16384 := this; have := s.isLt; omega⟩ : Fin 1015808)

/-- The bin clipped into 0 … 29, as both kernels compute it. -/
def clipW (w : BitVec 32) : BitVec 32 := IntOp.minsi 29#32 (IntOp.maxsi 0#32 w)

/-- The table lane of a clipped bin. -/
def clipIdx (w : BitVec 32) : Fin 128 := ⟨(clipW w).toNat % 128, Nat.mod_lt _ (by decide)⟩

/-- One element's term of the histogram kernel's count for bin b at grid point s: one when its clipped bin is b and
    its column is a real one (below 1000000), zero otherwise. -/
def histTerm (X Y : FVec Ideal S16x1015808 .f32) (b : Fin 30) (s : Fin 62) (y : S16x16384.Idx) : E :=
  if clipW (binW (X (padIdx s y)) (Y (padIdx s y))) = BitVec.ofNat 32 b.val ∧ s.val * 16384 + (y 1).val < 1000000 then oneW else 0

/-- The loss kernel's value at an element of the padded arrays: the cross-entropy times the table's lane of the
    clipped bin. -/
def lossArr (X Y : FVec Ideal S16x1015808 .f32) (T : FVec Ideal S1x128 .f32) : FVec Ideal S16x1015808 .f32 :=
  fun j => bce (X j) (Y j) * T (ix2 (0 : Fin 1) (clipIdx (binW (X j) (Y j))))

end Cert.KernelIdeal.KV

end
-- ==== Proof.KFold.lean ====
/- The kernel program's buffers at its segment boundaries, read back through its host operations. -/
import proofs.«161003_j88261577933232_1_alg».proof.Proof.KDefs
import Idealize.ShloMosaic.Lib.StableHlo.Run

noncomputable section

namespace Cert.KernelIdeal.KFold
open Cert.KernelIdeal Cert.KernelIdeal.Gen Cert.KernelIdeal.KV
open Idealize.ShloMosaic Idealize.ShloMosaic.TcCoe Idealize.ShloMosaic.ValueIdx Idealize.SL.Sem Cert.Spec
open Idealize.ShloMosaic.Pipeline (Dat Cfg Window)

variable (m : (ℓ : Loc nD τ sig) → Buf (Elt Ideal) ℓ) (ρ : Dev nD → PrngReg)

/-- The result buffer after the last host operation: the first 1000000 columns of the loss kernel's output array. -/
theorem W10_result (c : Dev nD) :
    W10 (F := Ideal) m ρ c (Proc.devRef .tc main_v22) = sliceOf ((dat1 (F := Ideal) (V8 m ρ) c).arrAt 3 cfg1.N) := by
  -- the loss kernel's fourth window is the array the slice reads: its contents at the region's exit
  rw [← W9_arr m ρ c 3]
  show StableHlo.after hostOps2 (W9 m ρ c) (Proc.devRef .tc main_v22) = _
  generalize W9 m ρ c = W
  -- the one operation writes the result buffer with the slice of that array
  after_results
  rfl

/-- The padded inputs as the histogram kernel finds them. -/
theorem V4_main_v0 (c : Dev nD) : V4 (F := Ideal) m ρ c main_v0 = padOf (m ((c : Thread nD τ).loc main_arg0)) := by
  have hW : W0 m ρ c (Proc.devRef .tc main_arg0) = m ((c : Thread nD τ).loc main_arg0) := rfl
  rw [← hW]
  show StableHlo.after hostOps0_3 (StableHlo.after hostOps0_2 (StableHlo.after hostOps0_1 (StableHlo.after hostOps0 (W0 m ρ c))))
    (Proc.devRef .tc main_v0) = _
  generalize W0 m ρ c = W
  dsimp only [hostOps0_3, hostOps0_2, hostOps0_1, hostOps0]
  -- the buffer is written once, by the pad of the first argument with the converted integer zero; the later
  -- operations write other buffers
  after_results
  simp only [StableHlo.TRef.ofBuf, StableHlo.TRef.toBuf, cast_eq]
  rfl
theorem V4_main_v1 (c : Dev nD) : V4 (F := Ideal) m ρ c main_v1 = padOf (m ((c : Thread nD τ).loc main_arg1)) := by
  have hW : W0 m ρ c (Proc.devRef .tc main_arg1) = m ((c : Thread nD τ).loc main_arg1) := rfl
  rw [← hW]
  show StableHlo.after hostOps0_3 (StableHlo.after hostOps0_2 (StableHlo.after hostOps0_1 (StableHlo.after hostOps0 (W0 m ρ c))))
    (Proc.devRef .tc main_v1) = _
  generalize W0 m ρ c = W
  dsimp only [hostOps0_3, hostOps0_2, hostOps0_1, hostOps0]
  -- the buffer is written once, by the pad of the second argument with the converted integer zero
  after_results
  simp only [StableHlo.TRef.ofBuf, StableHlo.TRef.toBuf, cast_eq]
  rfl

/-- The padded inputs as the loss kernel finds them: unchanged by the histogram kernel and the host operations between. -/
theorem V8_main_v0 (c : Dev nD) : V8 (F := Ideal) m ρ c main_v0 = padOf (m ((c : Thread nD τ).loc main_arg0)) := by
  -- an input window's array leaves the histogram kernel as it entered it
  have h5 : W5 (F := Ideal) m ρ c (Proc.devRef .tc main_v0) = V4 m ρ c main_v0 :=
    (W5_arr m ρ c 0).trans (((dat0 (V4 m ρ) c).arrAt_in 0 rfl cfg0.N).trans (A_eq0 (V4 m ρ) c 0))
  rw [← V4_main_v0 m ρ c, ← h5]
  show StableHlo.after hostOps1_2 (StableHlo.after hostOps1_1 (StableHlo.after hostOps1 (W5 m ρ c))) (Proc.devRef .tc main_v0) = _
  generalize W5 m ρ c = W
  dsimp only [hostOps1_2, hostOps1_1, hostOps1]
  -- no host operation between the two kernels writes it
  after_results
theorem V8_main_v1 (c : Dev nD) : V8 (F := Ideal) m ρ c main_v1 = padOf (m ((c : Thread nD τ).loc main_arg1)) := by
  have h5 : W5 (F := Ideal) m ρ c (Proc.devRef .tc main_v1) = V4 m ρ c main_v1 :=
    (W5_arr m ρ c 1).trans (((dat0 (V4 m ρ) c).arrAt_in 1 rfl cfg0.N).trans (A_eq0 (V4 m ρ) c 1))
  rw [← V4_main_v1 m ρ c, ← h5]
  show StableHlo.after hostOps1_2 (StableHlo.after hostOps1_1 (StableHlo.after hostOps1 (W5 m ρ c))) (Proc.devRef .tc main_v1) = _
  generalize W5 m ρ c = W
  dsimp only [hostOps1_2, hostOps1_1, hostOps1]
  after_results

/-- The weights table as the loss kernel finds it: the host operations between the two kernels applied to the
    histogram kernel's output array and the mask. -/
theorem V8_main_v20 (c : Dev nD) :
    V8 (F := Ideal) m ρ c main_v20 = tableOf ((dat0 (F := Ideal) (V4 m ρ) c).arrAt 2 cfg0.N) (m ((c : Thread nD τ).loc main_arg2)) := by
  -- the mask is as launched when the histogram kernel ends: neither the first host operations nor the kernel write it
  have hM : W5 (F := Ideal) m ρ c (Proc.devRef .tc main_arg2) = m ((c : Thread nD τ).loc main_arg2) := by
    rw [W5_of_ne m ρ c main_arg2 (by decide)]
    show StableHlo.after hostOps0_3 (StableHlo.after hostOps0_2 (StableHlo.after hostOps0_1 (StableHlo.after hostOps0 (W0 m ρ c))))
      (Proc.devRef .tc main_arg2) = _
    dsimp only [hostOps0_3, hostOps0_2, hostOps0_1, hostOps0]
    after_results
  -- the histogram array is the kernel's third window at its exit
  rw [← W5_arr m ρ c 2, ← hM]
  show StableHlo.after hostOps1_2 (StableHlo.after hostOps1_1 (StableHlo.after hostOps1 (W5 m ρ c))) (Proc.devRef .tc main_v20) = _
  generalize W5 m ρ c = W
  dsimp only [hostOps1_2, hostOps1_1, hostOps1]
  -- operation by operation: the lanes, the mask count, the non-empty count, the clipped product, the quotient,
  -- and the scatter into the table of zeros
  after_results
  simp only [StableHlo.TRef.ofBuf, StableHlo.TRef.toBuf, cast_eq]
  rfl

end Cert.KernelIdeal.KFold

end
-- ==== Proof.KHistPay.lean ====
/- The value the histogram kernel's body stores into its [1, 128] accumulator, lane by lane. -/
import proofs.«161003_j88261577933232_1_alg».proof.Proof.KDefs
import Idealize.ShloMosaic.PureOps.Ideal.Laws
import Idealize.ShloMosaic.Lib.IdealHost
import Idealize.ShloMosaic.Lib.Pipeline.Value
import Idealize.ShloMosaic.Lib.ValueLayout
import Idealize.ShloMosaic.Lib.StableHlo.Predicate

noncomputable section

namespace Cert.KernelIdeal.KHistPay
open Cert.KernelIdeal Cert.KernelIdeal.Gen Cert.KernelIdeal.Facts₀ Cert.KernelIdeal.Facts Cert.KernelIdeal.KV
open Idealize.ShloMosaic Idealize.ShloMosaic.TcCoe Idealize.ShloMosaic.ValueIdx Idealize.SL.Sem Cert.Spec
open Idealize.ShloMosaic.Pipeline (Dat Cfg Window)

/-- The body's stored value, from the grid point's coordinates, the two input blocks and the accumulator it loads: the
    body's payloads composed in program order (30 steps "accumulator + one-hot lane b · count of bin b"). -/
def histStore (i : grid0.Coords) (x0 x1 : Vec Ideal S16x16384 .f32) (acc : Vec Ideal S1x128 .f32) : FVec Ideal S1x128 .f32 :=
  let v16 : IVec S16x16384 32 := k0_pay3 (F := Ideal) x0 x1
  let v22 : IVec S16x16384 1 := k0_pay4 i
  let v23 : IVec S1x128 32 := iota .tc S1x128 32 [1] Facts₀.iota_S1x128_d1_w32
  let v25 : FVec Ideal S1x128 .f32 := k0_pay5 (F := Ideal) acc
  let v35 : FVec Ideal S1x1 .f32 := k0_pay6 (F := Ideal) i x0 x1
  let v37 : IVec S1x128 1 := k0_pay7
  let cst_13 : Ideal .f32 := Scalar.ofBits .f32 0x3F800000#32
  let v79 : FVec Ideal S1x128 .f32 := k0_pay8 v16 v22 v23 v25 v35 v37 cst_13
  let v115 : FVec Ideal S1x128 .f32 := k0_pay9 v16 v22 v23 v79 3#32
  let v121 : FVec Ideal S16x16384 .f32 := k0_pay10 (F := Ideal) v16 v22
  let v151 : FVec Ideal S1x128 .f32 := k0_pay11 v16 v22 v23 v115 v121
  let v161 : FVec Ideal S1x1 .f32 := k0_pay12 (F := Ideal) v16 v22
  let v162 : IVec S1x128 32 := k0_pay13
  let v187 : FVec Ideal S1x128 .f32 := k0_pay14 v16 v22 v23 v151 v161 v162
  let v204 : FVec Ideal S1x128 .f32 := k0_pay15 (F := Ideal) v16 v22 v23
  let v241 : FVec Ideal S1x128 .f32 := k0_pay16 v16 v22 v23 v187 v204
  let v244 : IVec S16x16384 1 := k0_pay17 v16 v22
  let cst_93 : Ideal .f32 := Scalar.ofBits .f32 0x00000000#32
  let v245 : FVec Ideal S16x16384 .f32 := k0_pay18 (F := Ideal)
  let v277 : FVec Ideal S1x128 .f32 := k0_pay19 v16 v22 v23 v241 v244 cst_93 v245
  let v287 : FVec Ideal S1x1 .f32 := k0_pay20 (F := Ideal) v16 v22
  let v313 : FVec Ideal S1x128 .f32 := k0_pay21 v16 v22 v23 v277 v287
  let v323 : FVec Ideal S1x1 .f32 := k0_pay22 (F := Ideal) v16 v22
  let v328 : FVec Ideal S1x128 .f32 := k0_pay23 (F := Ideal) v23
  let v367 : FVec Ideal S1x128 .f32 := k0_pay24 v16 v22 v23 v313 v323 v328
  let v370 : IVec S16x16384 1 := k0_pay25 v16 v22
  let cst_141 : Ideal .f32 := Scalar.ofBits .f32 0x3F800000#32
  let v403 : FVec Ideal S1x128 .f32 := k0_pay26 v16 v22 v23 v367 v370 cst_141
  let v411 : FVec Ideal S16x1 .f32 := k0_pay27 (F := Ideal) v16 v22
  let v439 : FVec Ideal S1x128 .f32 := k0_pay28 v16 v22 v23 v403 v411
  let v449 : FVec Ideal S1x1 .f32 := k0_pay29 (F := Ideal) v16 v22
  let v451 : IVec S1x128 1 := k0_pay30 v23
  let cst_175 : Ideal .f32 := Scalar.ofBits .f32 0x00000000#32
  let v452 : FVec Ideal S1x128 .f32 := k0_pay31 (F := Ideal)
  let v493 : FVec Ideal S1x128 .f32 := k0_pay32 v16 v22 v23 v439 v449 v451 cst_175 v452
  let v495 : IVec S16x16384 1 := k0_pay33 v16
  let v529 : FVec Ideal S1x128 .f32 := k0_pay34 v16 v22 v23 v493 v495
  let v536 : FVec Ideal S16 .f32 := k0_pay35 (F := Ideal) v16 v22
  k0_pay1 v16 v22 v23 v529 v536

/-- The literal one and the literal zero, as the programs write them. -/
private abbrev litOne : Ideal .f32 := Scalar.ofBits .f32 0x3F800000#32
private abbrev litZero : Ideal .f32 := Scalar.ofBits .f32 0x00000000#32

/-- The indicator array of a mask: one where the mask bit is set, zero elsewhere. -/
private def ind (c : IVec S16x16384 1) : FVec Ideal S16x16384 .f32 :=
  select c (broadcast S16x16384 litOne) (broadcast S16x16384 litZero)

/-- The row sums of a block. -/
private def rowSums (m : FVec Ideal S16x16384 .f32) : FVec Ideal S16 .f32 :=
  multiReduction (F := Ideal) .add [1] S16 m 0x00000000#32 Gen.reduces_S16x16384_S16 (.inl rfl) rfl

/-- The sum of a column of 16 row sums, as a [1, 1] array. -/
private def colSum (r : FVec Ideal S16x1 .f32) : FVec Ideal S1x1 .f32 :=
  shapeCast S1x1 (multiReduction (F := Ideal) .add [0] S1 r 0x00000000#32 Gen.reduces_S16x1_S1 (.inl rfl) rfl) Gen.shapeCasts_S1_S1x1

/-- The total of a block, as a [1, 1] array. -/
private def total (m : FVec Ideal S16x16384 .f32) : FVec Ideal S1x1 .f32 :=
  colSum (shapeCast S16x1 (rowSums m) Gen.shapeCasts_S16_S16x1)

/-- The mask "clipped bin is w, and the column is a real one". -/
private def maskOf (v16 : IVec S16x16384 32) (v22 : IVec S16x16384 1) (w : BitVec 32) : IVec S16x16384 1 :=
  andi (cmpi .eq v16 (broadcast S16x16384 w)) v22

/-- The one-hot lane vector of the word w. -/
private def hot (v23 : IVec S1x128 32) (w : BitVec 32) : FVec Ideal S1x128 .f32 :=
  select (cmpi .eq v23 (broadcast S1x128 w)) (broadcast S1x128 litOne) (broadcast S1x128 litZero)

/-- One step: the accumulator plus the one-hot lane of w times the count of bin w. -/
private def step (v16 : IVec S16x16384 32) (v22 : IVec S16x16384 1) (v23 : IVec S1x128 32) (acc : FVec Ideal S1x128 .f32) (w : BitVec 32) :
    FVec Ideal S1x128 .f32 :=
  addf acc (mulf (hot v23 w) (broadcastTo S1x128 (total (ind (maskOf v16 v22 w))) Gen.broadcasts_S1x1_S1x128))

/-- The 30 bin words, in program order. -/
private def bins : List (BitVec 32) := (List.range 30).map (BitVec.ofNat 32)

private theorem histStore_eq (i : grid0.Coords) (x0 x1 : Vec Ideal S16x16384 .f32) (acc : Vec Ideal S1x128 .f32) :
    histStore i x0 x1 acc
      = bins.foldl (step (k0_pay3 (F := Ideal) x0 x1) (k0_pay4 i) (iota .tc S1x128 32 [1] Facts₀.iota_S1x128_d1_w32))
          (shapeCast S1x128 acc Gen.shapeCasts_S1x128_S1x128) := rfl

private theorem litOne_eq : litOne = (1 : EReal) := Ideal.ofBits_one_f32
private theorem litZero_eq : litZero = (0 : EReal) := Ideal.ofBits_zero_f32

/-- A selection between the literals one and zero is the indicator of the mask bit. -/
private theorem select_lits {s : Shape} (c : IVec s 1) (y : s.Idx) :
    select c (broadcast s litOne) (broadcast s litZero) y = if c y = 1#1 then (1 : EReal) else 0 := by
  show (if c y = 1#1 then litOne else litZero) = _
  rw [litOne_eq, litZero_eq]

private theorem ind_apply (c : IVec S16x16384 1) (y : S16x16384.Idx) : ind c y = if c y = 1#1 then (1 : EReal) else 0 :=
  select_lits c y

private theorem hot_apply (v23 : IVec S1x128 32) (w : BitVec 32) (l : S1x128.Idx) :
    hot v23 w l = if v23 l = w then (1 : EReal) else 0 := by
  refine (select_lits _ l).trans ?_
  refine if_congr ?_ rfl rfl
  exact IntOp.cmpi_eq

private theorem maskOf_apply (v16 : IVec S16x16384 32) (v22 : IVec S16x16384 1) (w : BitVec 32) (y : S16x16384.Idx) :
    maskOf v16 v22 w y = 1#1 ↔ v16 y = w ∧ v22 y = 1#1 := by
  show IntOp.andi (IntOp.cmpi .eq (v16 y) w) (v22 y) = 1#1 ↔ _
  rw [IntOp.andi_eq_one, IntOp.cmpi_eq]

/-- A row sum is the sum over the row's columns. -/
private theorem rowSums_apply (m : FVec Ideal S16x16384 .f32) (r : Fin 16) :
    rowSums m (ix1 r) = ∑ c : Fin 16384, m (ix2 r c) := by
  refine (Ideal.multiReduction_add_single m 0x00000000#32 Gen.reduces_S16x16384_S16 (.inl rfl) rfl (ix1 r)).trans ?_
  show ∑ c : Fin 16384, m (Gen.reduces_S16x16384_S16.lift (ix1 r) c) = _
  refine Finset.sum_congr rfl fun c _ => congrArg m (funext fun a => ?_)
  match a with
  | ⟨0, _⟩ => exact Fin.ext rfl
  | ⟨1, _⟩ => exact Fin.ext rfl

/-- The column sum of 16 values, read at the one index. -/
private theorem colSum_apply (r : FVec Ideal S16x1 .f32) (u v : Fin 1) :
    colSum r (ix2 u v) = ∑ k : Fin 16, r (ix2 k v) := by
  unfold colSum
  rw [shapeCast_a_1a_apply]
  refine (Ideal.multiReduction_add_single r 0x00000000#32 Gen.reduces_S16x1_S1 (.inl rfl) rfl (ix1 v)).trans ?_
  show ∑ k : Fin 16, r (Gen.reduces_S16x1_S1.lift (ix1 v) k) = _
  refine Finset.sum_congr rfl fun k _ => congrArg r (funext fun a => ?_)
  match a with
  | ⟨0, _⟩ => exact Fin.ext rfl
  | ⟨1, _⟩ => exact Fin.ext rfl

/-- A vector of 16 cast to a column reads its entry. -/
private theorem col_apply (x : FVec Ideal S16 .f32) (k : Fin 16) (v : Fin 1) :
    shapeCast S16x1 x Gen.shapeCasts_S16_S16x1 (ix2 k v) = x (ix1 k) :=
  shapeCast_apply x _ _ _ (by
    rw [Shape.rowMajor_val_one, Shape.rowMajor_val_two]
    show k.val = k.val * 1 + v.val
    have := v.isLt; omega)

/-- The total of a block is the sum over its elements. -/
private theorem total_apply (m : FVec Ideal S16x16384 .f32) (u v : Fin 1) :
    total m (ix2 u v) = ∑ y : S16x16384.Idx, m y := by
  unfold total
  rw [colSum_apply, sum_idx2]
  refine Finset.sum_congr rfl fun k _ => ?_
  rw [col_apply, rowSums_apply]

/-- The [1, 1] array spread over the 128 lanes reads its one entry. -/
private theorem spread_apply (t : FVec Ideal S1x1 .f32) (u : Fin 1) (p : Fin 128) :
    broadcastTo S1x128 t Gen.broadcasts_S1x1_S1x128 (ix2 u p) = t (ix2 (0 : Fin 1) (0 : Fin 1)) :=
  broadcastTo_apply t _ _ _ fun a => match a with
    | ⟨0, _⟩ => rfl
    | ⟨1, _⟩ => rfl

/-- The number of elements of the block whose clipped bin is w and whose column is a real one. -/
private def count (v16 : IVec S16x16384 32) (v22 : IVec S16x16384 1) (w : BitVec 32) : EReal :=
  ∑ y : S16x16384.Idx, if v16 y = w ∧ v22 y = 1#1 then (1 : EReal) else 0

/-- The total of the indicator of the mask of w is the count of w. -/
private theorem total_count (v16 : IVec S16x16384 32) (v22 : IVec S16x16384 1) (w : BitVec 32) (u v : Fin 1) :
    total (ind (maskOf v16 v22 w)) (ix2 u v) = count v16 v22 w := by
  rw [total_apply]
  refine Finset.sum_congr rfl fun y _ => ?_
  rw [ind_apply]
  exact if_congr (maskOf_apply v16 v22 w y) rfl rfl

/-- One step at a lane: the accumulator's lane, plus the count of bin w when the lane's word is w. -/
private theorem step_apply (v16 : IVec S16x16384 32) (v22 : IVec S16x16384 1) (v23 : IVec S1x128 32) (acc : FVec Ideal S1x128 .f32)
    (w : BitVec 32) (u : Fin 1) (p : Fin 128) :
    step v16 v22 v23 acc w (ix2 u p) = acc (ix2 u p) + (if v23 (ix2 u p) = w then (1 : EReal) else 0) * count v16 v22 w := by
  show acc (ix2 u p) + hot v23 w (ix2 u p) * broadcastTo S1x128 (total (ind (maskOf v16 v22 w))) Gen.broadcasts_S1x1_S1x128 (ix2 u p) = _
  rw [hot_apply, spread_apply, total_count]

/-- The 30 steps at a lane: the accumulator's lane plus the count of the lane's word, when it is one of the steps' words. -/
private theorem foldl_apply (v16 : IVec S16x16384 32) (v22 : IVec S16x16384 1) (v23 : IVec S1x128 32) (u : Fin 1) (p : Fin 128)
    (ws : List (BitVec 32)) (hnd : ws.Nodup) (acc : FVec Ideal S1x128 .f32) :
    ws.foldl (step v16 v22 v23) acc (ix2 u p)
      = acc (ix2 u p) + if v23 (ix2 u p) ∈ ws then count v16 v22 (v23 (ix2 u p)) else 0 := by
  induction ws generalizing acc with
  | nil => simp
  | cons w ws ih =>
    rw [List.foldl_cons, ih (List.nodup_cons.1 hnd).2, step_apply]
    by_cases h : v23 (ix2 u p) = w
    · have hn : v23 (ix2 u p) ∉ ws := by rw [h]; exact (List.nodup_cons.1 hnd).1
      rw [if_pos h, if_neg hn, if_pos (List.mem_cons.2 (Or.inl h)), one_mul, add_zero, h]
    · rw [if_neg h, zero_mul, add_zero]
      refine congrArg _ (if_congr ?_ rfl rfl)
      rw [List.mem_cons]
      exact ⟨Or.inr, fun h' => h'.resolve_left h⟩

private theorem bins_nodup : bins.Nodup := by decide

private theorem mem_bins (b : Fin 30) : BitVec.ofNat 32 b.val ∈ bins :=
  List.mem_map.2 ⟨b.val, List.mem_range.2 b.isLt, rfl⟩

/-- The lane word at lane p is p. -/
private theorem lane_apply (u : Fin 1) (p : Fin 128) :
    iota .tc S1x128 32 [1] Facts₀.iota_S1x128_d1_w32 (ix2 u p) = BitVec.ofNat 32 p.val := by
  rw [iota_single_apply]

/-- The clipped bin of an element of the two blocks. -/
private theorem pay3_apply (x0 x1 : Vec Ideal S16x16384 .f32) (y : S16x16384.Idx) :
    k0_pay3 (F := Ideal) x0 x1 y = clipW (binW (x0 y) (x1 y)) := by
  unfold Gen.k0_pay3
  rw [shapeCast_self, shapeCast_self]
  rfl

/-- The column mask of an element at grid point i: its column in the padded array is a real one. -/
private theorem pay4_apply (i : grid0.Coords) (r : Fin 16) (c : Fin 16384) :
    k0_pay4 i (ix2 r c) = 1#1 ↔ (i 0).val * 16384 + c.val < 1000000 := by
  have hi : (i 0).val < 62 := (i 0).isLt
  have hc := c.isLt
  show IntOp.cmpi .slt (IntOp.addi (iota .tc S16x16384 32 [1] Gen.iota_S16x16384_d1_w32 (ix2 r c))
    (Scalar.muli (BitVec.ofNat 32 (i 0).val) 16384#32)) 1000000#32 = 1#1 ↔ _
  rw [iota_single_apply]
  have e : IntOp.addi (BitVec.ofNat 32 c.val) (Scalar.muli (BitVec.ofNat 32 (i 0).val) 16384#32)
      = BitVec.ofNat 32 ((i 0).val * 16384 + c.val) := by
    apply BitVec.eq_of_toNat_eq
    simp only [IntOp.addi, Scalar.muli, IntOp.muli, BitVec.toNat_add, BitVec.toNat_mul, BitVec.toNat_ofNat]
    omega
  show IntOp.cmpi .slt (IntOp.addi (BitVec.ofNat 32 c.val) (Scalar.muli (BitVec.ofNat 32 (i 0).val) 16384#32)) 1000000#32 = 1#1 ↔ _
  rw [e]
  exact StableHlo.Predicate.slt_ofNat_iff _ 1000000 (by omega) (by omega)

/-- Lane b < 30 of the stored value: the accumulator's lane plus the number of elements of the point's block whose
    clipped bin is b and whose column (point · 16384 + column in the block) is a real one. -/
theorem histStore_lane (i : grid0.Coords) (x0 x1 : Vec Ideal S16x16384 .f32) (acc : Vec Ideal S1x128 .f32) (b : Fin 30) :
    histStore i x0 x1 acc (ix2 (0 : Fin 1) (⟨b.val, by omega⟩ : Fin 128))
      = acc (ix2 (0 : Fin 1) (⟨b.val, by omega⟩ : Fin 128))
        + ∑ y : S16x16384.Idx, (if clipW (binW (x0 y) (x1 y)) = BitVec.ofNat 32 b.val ∧ (i 0).val * 16384 + (y 1).val < 1000000 then oneW else 0) := by
  rw [histStore_eq, foldl_apply _ _ _ _ _ bins bins_nodup, shapeCast_self, lane_apply, if_pos (mem_bins b)]
  refine congrArg _ ?_
  unfold count
  refine Finset.sum_congr rfl fun y _ => ?_
  obtain ⟨r, c, rfl⟩ : ∃ (r : Fin 16) (c : Fin 16384), y = ix2 r c := ⟨y 0, y 1, eq_ix2 y⟩
  rw [pay3_apply, show oneW = (1 : EReal) from litOne_eq]
  exact if_congr (and_congr Iff.rfl (pay4_apply i r c)) rfl rfl

/-- The zeros the body stores at the first grid point, at any index. -/
theorem zeros_apply (y : S1x128.Idx) : k0_pay2 (F := Ideal) y = 0 :=
  litZero_eq

end Cert.KernelIdeal.KHistPay

end
-- ==== Proof.KHist.lean ====
/- The histogram kernel's output array: lane b < 30 holds the sum over the 62 grid points of that point's count for bin b. -/
import proofs.«161003_j88261577933232_1_alg».proof.Proof.KHistPay
import Idealize.ShloMosaic.Lib.Pipeline.Value

noncomputable section

namespace Cert.KernelIdeal.KHist
open Cert.KernelIdeal Cert.KernelIdeal.Gen Cert.KernelIdeal.KV Cert.KernelIdeal.KHistPay
open Idealize.ShloMosaic Idealize.ShloMosaic.TcCoe Idealize.ShloMosaic.ValueIdx Idealize.SL.Sem Cert.Spec
open Idealize.ShloMosaic.Pipeline (Dat Cfg Window)

theorem hz : (![0, 0] : Fin 2 → Nat) = fun _ => 0 := funext fun a => by fin_cases a <;> rfl

/-- At a later grid point the body leaves in the accumulator the stored value computed from the point's coordinates, the two
    input blocks and what the accumulator held: its one store covers the block and its loads read whole buffers. -/
theorem out_B (c : Dev nD) (i : grid0.Coords) (a1 : Memref sig .tc .vmem S16x16384 .f32) (h1 : a1.IsWhole)
    (a2 : Memref sig .tc .vmem S16x16384 .f32) (h2 : a2.IsWhole) (a3 : Memref sig .tc .vmem S1x128 .f32) (h3 : a3.IsWhole)
    (hc : ¬cond0_0 i) (x0 x1 : Vec Ideal S16x16384 .f32) (xo2 : Vec Ideal S1x128 .f32) :
    out0_B_2 (F := Ideal) c i a1 h1 a2 h2 a3 h3 hc x0 x1 xo2 = histStore i x0 x1 xo2 := by
  unfold out0_B_2
  rw [View.read_writes_eq_canon _ _ _ (cover0_B_2 c i a1 h1 a2 h2 a3 h3 hc x0 x1 xo2)]
  unfold kernelRun0_B
  dsimp only
  sl_unfold_words
  rw [View.canon_unit_zero hz]
  simp only [View.readAt_eq_ld, h1.read_unread, h2.read_unread, h3.read_unread, View.ld_unit_zero (S := S16x16384) hz, View.ld_unit_zero (S := S1x128) hz]
  rfl

/-- At the first grid point the body stores the zeros, loads them back, and leaves the stored value computed over the zeros. -/
theorem out_A (c : Dev nD) (i : grid0.Coords) (a1 : Memref sig .tc .vmem S16x16384 .f32) (h1 : a1.IsWhole)
    (a2 : Memref sig .tc .vmem S16x16384 .f32) (h2 : a2.IsWhole) (a3 : Memref sig .tc .vmem S1x128 .f32) (h3 : a3.IsWhole)
    (hc : cond0_0 i) (x0 x1 : Vec Ideal S16x16384 .f32) :
    out0_A_2 (F := Ideal) c i a1 h1 a2 h2 a3 h3 hc x0 x1 = histStore i x0 x1 (k0_pay2 (F := Ideal)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x128) hz]
  simp only [View.readAt_eq_ld, h1.read_unread, h2.read_unread, View.readCov_unit_zero (S := S1x128) _ hz, View.ld_unit_zero (S := S16x16384) hz, View.ld_unit_zero (S := S1x128) hz]
  rfl

variable (V : (c : Dev nD) → (b : Ref sig .tc) → Buf (Elt Ideal) ((c : Thread nD τ).loc b))

/-- The two input blocks at a grid point and the two padded arrays, at their literal types. -/
abbrev xblk (c : Dev nD) (t : Fin cfg0.N) : Vec Ideal S16x16384 .f32 := iblk0 V c 0 t
abbrev yblk (c : Dev nD) (t : Fin cfg0.N) : Vec Ideal S16x16384 .f32 := iblk0 V c 1 t
abbrev xarr (c : Dev nD) : FVec Ideal S16x1015808 .f32 := V c main_v0
abbrev yarr (c : Dev nD) : FVec Ideal S16x1015808 .f32 := V c main_v1

/-- The index maps of the two input windows: row block 0, column block the grid point. -/
theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
/-- The grid's one coordinate is the point. -/
theorem coord0 : ∀ t : Fin cfg0.N, (grid0.coords t 0).val = t.val :=
  (by decide +kernel : ∀ t : Fin grid0.N, (grid0.coords t 0).val = t.val)

/-- Element y of the first input's block at point t is the padded array at row y₀, column 16384 t + y₁. -/
theorem xblk_apply (c : Dev nD) (t : Fin cfg0.N) (s : Fin 62) (hs : s.val = t.val) (y : S16x16384.Idx) :
    xblk V c t y = xarr V c (padIdx s y) := by
  have hi := idx0 t
  show V c main_v0 (((cfg0.win 0).blk t).view.emb y) = V c main_v0 (padIdx s y)
  refine congrArg (V c main_v0) (funext fun a => Fin.ext ?_)
  match a with
  | ⟨0, _⟩ => show win0_0.index t 0 * 16 + 1 * (y 0).val = (y 0).val; rw [hi.1]; omega
  | ⟨1, _⟩ => show win0_0.index t 1 * 16384 + 1 * (y 1).val = s.val * 16384 + (y 1).val; rw [hi.2, hs]; omega

theorem yblk_apply (c : Dev nD) (t : Fin cfg0.N) (s : Fin 62) (hs : s.val = t.val) (y : S16x16384.Idx) :
    yblk V c t y = yarr V c (padIdx s y) := by
  have hi := idx1 t
  show V c main_v1 (((cfg0.win 1).blk t).view.emb y) = V c main_v1 (padIdx s y)
  refine congrArg (V c main_v1) (funext fun a => Fin.ext ?_)
  match a with
  | ⟨0, _⟩ => show win0_1.index t 0 * 16 + 1 * (y 0).val = (y 0).val; rw [hi.1]; omega
  | ⟨1, _⟩ => show win0_1.index t 1 * 16384 + 1 * (y 1).val = s.val * 16384 + (y 1).val; rw [hi.2, hs]; omega

/-- Lane b of the [1, 128] block. -/
abbrev lane (b : Fin 30) : S1x128.Idx := ix2 (0 : Fin 1) (⟨b.val, by omega⟩ : Fin 128)

/-- The count of grid point s for bin b: the sum of the terms of the point's block (zero past the grid). -/
def pointSum (c : Dev nD) (b : Fin 30) (s : Nat) : E :=
  if h : s < 62 then ∑ y : S16x16384.Idx, histTerm (xarr V c) (yarr V c) b ⟨s, h⟩ y else 0

/-- Lane b of the value stored at point t over an accumulator: the accumulator's lane plus the point's count. -/
theorem store_lane (c : Dev nD) (b : Fin 30) (t : Fin cfg0.N) (acc : Vec Ideal S1x128 .f32) :
    histStore (grid0.coords t) (xblk V c t) (yblk V c t) acc (lane b) = acc (lane b) + pointSum V c b t.val := by
  have hN : t.val < 62 := lt_of_lt_of_eq t.isLt (show cfg0.N = 62 from N_0)
  refine (histStore_lane (grid0.coords t) (xblk V c t) (yblk V c t) acc b).trans ?_
  unfold pointSum
  rw [dif_pos hN]
  refine congrArg (fun z => acc (lane b) + z) (Finset.sum_congr rfl fun y _ => ?_)
  unfold histTerm
  rw [xblk_apply V c t ⟨t.val, hN⟩ rfl y, yblk_apply V c t ⟨t.val, hN⟩ rfl y, coord0 t]

/-- Lane b of the accumulator after point n: the counts of points 0 … n, summed. -/
theorem outsAt_lane (c : Dev nD) (b : Fin 30) : ∀ (n : ℕ) (hn : n < cfg0.N),
    (outsAt0 V c n hn : Vec Ideal S1x128 .f32) (lane b) = ∑ s ∈ Finset.range (n + 1), pointSum V c b s
  | 0, hn => by
    refine (congrFun (outsAt0_A V c ⟨0, hn⟩ rfl) (lane b)).trans ?_
    refine (congrFun (out_A c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr rfl) (xblk V c ⟨0, hn⟩) (yblk V c ⟨0, hn⟩)) (lane b)).trans ?_
    rw [store_lane V c b ⟨0, hn⟩ (k0_pay2 (F := Ideal)), zeros_apply, zero_add, Finset.sum_range_one]
  | n + 1, hn => by
    have hN : cfg0.N = 62 := N_0
    have hB : ¬(⟨n + 1, hn⟩ : Fin cfg0.N).val % 62 = 0 := by dsimp only; omega
    refine (congrFun (outsAt0_B V c ⟨n + 1, hn⟩ hB) (lane b)).trans ?_
    refine (congrFun (out_B c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (fun h => hB ((hcond0_0 ⟨n + 1, hn⟩).mp h)) (xblk V c ⟨n + 1, hn⟩) (yblk V c ⟨n + 1, hn⟩)
      (outsAt0 V c n (Nat.lt_of_succ_lt hn))) (lane b)).trans ?_
    rw [store_lane V c b ⟨n + 1, hn⟩ (outsAt0 V c n (Nat.lt_of_succ_lt hn)), outsAt_lane c b n (Nat.lt_of_succ_lt hn),
      Finset.sum_range_succ _ (n + 1)]

/-- The last grid point, the one whose block is written back. -/
abbrev tLast : Fin cfg0.N := ⟨61, by decide⟩

/-- What the accumulator holds after the last point, as contents of the histogram array. -/
abbrev lastAcc (c : Dev nD) : Buf (Elt Ideal) ((c : Thread nD τ).loc main_v2) := outsAt0 V c 61 (by decide)

/-- The one write-back writes it: the block at index (0, 0) of the [1, 128] array is the array. -/
theorem flushed_eq (c : Dev nD) (t : Fin cfg0.N) (hf : (cfg0.win 2).flush t = true) :
    (dat0 V c).flushed 2 t = ((cfg0.win 2).blk t).view.read (Elt Ideal) (lastAcc V c) := by
  have hN : cfg0.N = 62 := N_0
  have h61 : t.val = 61 := by have := (flush0_2 t).mp hf; have := t.isLt; omega
  obtain rfl : t = tLast := Fin.ext h61
  show (cfg0.win 2).cut (grid0.coords tLast) ((dat0 V c).after 2 tLast) = _
  rw [after0_2]
  have hz' : (fun a => win0_2.index tLast a * main_v2.ty.shape.size a) = fun _ => 0 := funext fun a => by fin_cases a <;> decide
  exact (Memref.read_access_unit_zero (Elt Ideal) main_v2 hz' (fun a => by rw [congrFun hz' a]; simp) (lastAcc V c)).symm

/-- So the histogram array ends holding what the accumulator held after the last point. -/
theorem final (c : Dev nD) : (dat0 V c).arrAt 2 cfg0.N = lastAcc V c :=
  (dat0 V c).arrAt_eq_of_cover 2 (lastAcc V c) (flushed_eq V c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 128 from by decide +kernel]; omega⟩

/-- Lane b of the histogram array after the run: the sum, over the grid points and the elements of their blocks, of
    the element's term. -/
theorem hist_lane (c : Dev nD) (b : Fin 30) :
    ((dat0 (F := Ideal) V c).arrAt 2 cfg0.N : FVec Ideal S1x128 .f32) (ix2 (0 : Fin 1) (⟨b.val, by omega⟩ : Fin 128))
      = ∑ s : Fin 62, ∑ y : S16x16384.Idx, histTerm (V c main_v0) (V c main_v1) b s y := by
  refine (congrFun (final V c) (lane b)).trans ?_
  refine (outsAt_lane V c b 61 (by decide)).trans ?_
  show ∑ s ∈ Finset.range 62, pointSum V c b s = _
  rw [Finset.sum_range]
  refine Finset.sum_congr rfl fun s _ => ?_
  unfold pointSum
  rw [dif_pos s.isLt]

end Cert.KernelIdeal.KHist

end
-- ==== Proof.KLossPay.lean ====
/- The value the loss kernel's body leaves in its output block, element by element. -/
import proofs.«161003_j88261577933232_1_alg».proof.Proof.KDefs
import Idealize.ShloMosaic.Lib.Pipeline.Value
import Idealize.ShloMosaic.Lib.IdealHost

noncomputable section

namespace Cert.KernelIdeal.KLossPay
open Cert.KernelIdeal Cert.KernelIdeal.Gen Cert.KernelIdeal.Facts₀ Cert.KernelIdeal.Facts Cert.KernelIdeal.KV
open Idealize.ShloMosaic Idealize.ShloMosaic.TcCoe Idealize.ShloMosaic.ValueIdx Idealize.SL.Sem Cert.Spec
open Idealize.ShloMosaic.Pipeline (Dat Cfg Window)

/-! ## The two literals of the one-hot factors -/

/-- The word of 1.0 is the extended real one. -/
theorem oneW_eq : oneW = 1 := Ideal.ofBits_one_f32

/-- The word of 0.0 is the extended real zero. -/
theorem zeroW_eq : zeroW = 0 := Ideal.ofBits_zero_f32

/-- The one-hot factor of lane w at clipped bin c: one when c is w, zero otherwise. -/
def oh (c w : BitVec 32) : E := if c = w then oneW else 0

/-- The [1, 1] shape has one index. -/
theorem idx11 (k : S1x1.Idx) : k = ix2 (0 : Fin 1) (0 : Fin 1) := by
  funext a
  match a with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)

/-- A select between 1.0 and 0.0 on the bit of "c equals w" is the one-hot factor. -/
theorem select_eq_oh (c w : BitVec 32) : Scalar.select (IntOp.cmpi .eq c w) oneW zeroW = oh c w := by
  show (if BitVec.ofBool (c == w) = 1 then oneW else zeroW) = if c = w then oneW else 0
  by_cases h : c = w
  · subst h; rw [if_pos rfl, beq_self_eq_true]; exact if_pos (by decide)
  · have hb : (c == w) = false := beq_eq_false_iff_ne.mpr h
    rw [if_neg h, hb]
    exact (if_neg (by decide)).trans zeroW_eq

/-! ## One step of the weight's chain -/

/-- One step at an element: the accumulator plus the one-hot factor of lane w times the [1, 1] operand's one
    element. -/
theorem step_apply (v13 : IVec S16x16384 32) (acc : FVec Ideal S16x16384 .f32) (w : BitVec 32) (t : FVec Ideal S1x1 .f32)
    (hb : S1x1.Broadcasts S16x16384) (y : S16x16384.Idx) :
    addf acc (mulf (select (cmpi .eq v13 (broadcast S16x16384 w))
        (broadcast S16x16384 (Scalar.ofBits (F := Ideal) .f32 0x3F800000#32))
        (broadcast S16x16384 (Scalar.ofBits (F := Ideal) .f32 0x00000000#32)))
      (broadcastTo S16x16384 t hb)) y
      = acc y + oh (v13 y) w * t (ix2 (0 : Fin 1) (0 : Fin 1)) := by
  show acc y + Scalar.select (IntOp.cmpi .eq (v13 y) w) oneW zeroW * broadcastTo S16x16384 t hb y = _
  unfold broadcastTo
  rw [idx11 (fun a => _), select_eq_oh]

/-! ## A lane of the table block -/

/-- Lane b of the table block, read through its 1×1 rectangle. -/
theorem ld_lane (x2 : Vec Ideal S1x128 .f32) (b : Nat) (hb : b < 128)
    (inb : ∀ a, (![0, b] : Fin 2 → Nat) a + S1x1.size a ≤ S1x128.size a) (j : S1x1.Idx) :
    View.ld x2 (Rect.unit (s := S1x128) ![0, b] S1x1.size inb) j = x2 (ix2 (0 : Fin 1) (⟨b, hb⟩ : Fin 128)) := by
  show x2 _ = x2 _
  congr 1
  funext a
  match a with
  | ⟨0, _⟩ => exact Fin.ext (by have h : (j 0).val < 1 := (j 0).isLt; show 0 + 1 * (j 0).val = 0; omega)
  | ⟨1, _⟩ => exact Fin.ext (by have h : (j 1).val < 1 := (j 1).isLt; show b + 1 * (j 1).val = b; omega)

/-- The same as the body reads it, after a cast to the same shape; the lane is written b mod 128, which is b. -/
theorem lane_apply (x2 : Vec Ideal S1x128 .f32) (b : Nat)
    (inb : ∀ a, (![0, b] : Fin 2 → Nat) a + S1x1.size a ≤ S1x128.size a) (h : S1x1.ShapeCasts S1x1) (j : S1x1.Idx) :
    shapeCast S1x1 (View.ld x2 (Rect.unit (s := S1x128) ![0, b] S1x1.size inb)) h j
      = x2 (ix2 (0 : Fin 1) (⟨b % 128, Nat.mod_lt _ (by decide)⟩ : Fin 128)) := by
  have hb : b < 128 := by have := inb 1; have h1 : b + 1 ≤ 128 := this; omega
  refine (congrFun (shapeCast_self (s := S1x1) (View.ld x2 (Rect.unit (s := S1x128) ![0, b] S1x1.size inb)) h) j).trans ?_
  rw [ld_lane x2 b hb inb j]
  exact congrArg (fun k => x2 (ix2 (0 : Fin 1) k)) (Fin.ext (Nat.mod_eq_of_lt hb).symm)

/-! ## The clipped bin -/

/-- The clipped bin is below 30: the clamp to 0 … 29, read signed, leaves a word whose natural number is at most 29. -/
theorem clipW_lt (w : BitVec 32) : (clipW w).toNat < 30 := by
  unfold clipW IntOp.minsi IntOp.maxsi
  have e := BitVec.toInt_eq_toNat_cond w
  have := w.isLt
  by_cases h1 : w.slt 0#32 = true
  · rw [if_pos h1]; decide
  · rw [if_neg h1]
    by_cases h2 : (29#32 : BitVec 32).slt w = true
    · rw [if_pos h2]; decide
    · rw [if_neg h2]
      rw [BitVec.slt_iff_toInt_lt] at h1 h2
      have e0 : (0#32 : BitVec 32).toInt = 0 := by decide
      have e29 : (29#32 : BitVec 32).toInt = 29 := by decide
      omega

/-! ## The chain of one-hot products collapses to one lane -/

/-- The chain over the first n lanes: from zero, lane by lane, the one-hot factor times the lane's entry. -/
def wacc (c : BitVec 32) (T : Nat → E) : Nat → E
  | 0 => 0
  | n + 1 => wacc c T n + oh c (BitVec.ofNat 32 n) * T n

/-- The chain over the first n lanes is the entry of lane c when c is below n, and zero otherwise: every other term
    is zero times an entry, which is zero in the extended reals whatever the entry, and the one term left is one times
    its entry. -/
theorem wacc_eq (c : BitVec 32) (T : Nat → E) : ∀ n : Nat, n ≤ 2 ^ 32 →
    wacc c T n = if c.toNat < n then T c.toNat else 0
  | 0, _ => by simp [wacc]
  | n + 1, hn => by
    have ih := wacc_eq c T n (by omega)
    have hnn : (BitVec.ofNat 32 n).toNat = n := by rw [BitVec.toNat_ofNat]; exact Nat.mod_eq_of_lt (by omega)
    rw [wacc, ih]
    by_cases h : c = BitVec.ofNat 32 n
    · have hc : c.toNat = n := by rw [h, hnn]
      rw [oh, if_pos h, if_neg (by omega), if_pos (by omega), oneW_eq, zero_add, one_mul, hc]
    · have hc : c.toNat ≠ n := fun e => h (BitVec.eq_of_toNat_eq (by rw [e, hnn]))
      rw [oh, if_neg h, zero_mul, add_zero]
      by_cases h2 : c.toNat < n
      · rw [if_pos h2, if_pos (by omega)]
      · rw [if_neg h2, if_neg (by omega)]

/-! ## The body's values at an element -/

/-- The body's cast of the first input block to its own shape is the block. -/
theorem k1_pay2_eq (v : Vec Ideal S16x16384 .f32) : k1_pay2 (F := Ideal) v = v := shapeCast_self v _

/-- The body's cast of the second input block to its own shape is the block. -/
theorem k1_pay3_eq (v : Vec Ideal S16x16384 .f32) : k1_pay3 (F := Ideal) v = v := shapeCast_self v _

/-- The body's integer vector at an element is the clipped bin of the two elements. -/
theorem k1_pay4_apply (v0 v2 : Vec Ideal S16x16384 .f32) (y : S16x16384.Idx) :
    k1_pay4 (F := Ideal) v0 v2 y = clipW (binW (v0 y) (v2 y)) := by
  unfold k1_pay4
  rw [k1_pay2_eq, k1_pay3_eq]
  rfl

/-- The stored value at an element: minus the cross-entropy's sum, times the weight. -/
theorem k1_pay1_apply (v3 v314 v318 : FVec Ideal S16x16384 .f32) (y : S16x16384.Idx) :
    k1_pay1 (F := Ideal) v3 v314 v318 y
      = (zeroW - (v3 y * Ideal.log (v318 y) + (oneW - v3 y) * Ideal.log1p (zeroW - v318 y))) * v314 y := rfl

/-- The body's clipped probability at an element. -/
theorem k1_pay27_apply (v1 : FVec Ideal S16x16384 .f32) (y : S16x16384.Idx) :
    k1_pay27 (F := Ideal) v1 y = clipP (v1 y) := rfl

/-- Element y of the output block: the cross-entropy of the two input blocks' elements times the table's lane of the
    clipped bin (the 30 one-hot products collapse to the one lane the clipped bin names). -/
theorem out1_3_apply (x0 x1 : Vec Ideal S16x16384 .f32) (x2 : Vec Ideal S1x128 .f32) (y : S16x16384.Idx) :
    out1_3 (F := Ideal) x0 x1 x2 y = bce (x0 y) (x1 y) * x2 (ix2 (0 : Fin 1) (clipIdx (binW (x0 y) (x1 y)))) := by
  have hz : (![0, 0] : Fin 2 → Nat) = fun _ => 0 := by
    funext a
    match a with
    | ⟨0, _⟩ => rfl
    | ⟨1, _⟩ => rfl
  -- the one whole-block store leaves its payload, and the whole-block loads read the two input blocks
  unfold out1_3
  rw [View.canon_unit_zero hz]
  simp only [View.ld_unit_zero (S := S16x16384) hz]
  -- the loss factor: 0 − x is −x, and what is left is the cross-entropy of the two elements
  rw [k1_pay1_apply, k1_pay27_apply, k1_pay2_eq, k1_pay3_eq, zeroW_eq, zero_sub, zero_sub]
  refine congrArg (fun z => bce (x0 y) (x1 y) * z) ?_
  -- the weight: thirty steps, each adding a one-hot factor times a lane of the table
  unfold k1_pay26 k1_pay23 k1_pay20 k1_pay17 k1_pay14 k1_pay11 k1_pay8 k1_pay5 k1_pay6 k1_pay9 k1_pay12 k1_pay15 k1_pay18
    k1_pay21 k1_pay24 k1_pay7 k1_pay10 k1_pay13 k1_pay16 k1_pay19 k1_pay22 k1_pay25
  simp only [step_apply, k1_pay4_apply]
  repeat rw [lane_apply]
  rw [show broadcast S16x16384 (FloatOps.ofBits (F := Ideal) FTy.f32 0#32) y = (0 : E) from Ideal.ofBits_zero_f32]
  -- the chain over the thirty lanes is the lane of the clipped bin, which is below 30
  have key := wacc_eq (clipW (binW (x0 y) (x1 y)))
    (fun n => x2 (ix2 (0 : Fin 1) (⟨n % 128, Nat.mod_lt _ (by decide)⟩ : Fin 128))) 30 (by norm_num)
  rw [if_pos (clipW_lt _)] at key
  exact key

end Cert.KernelIdeal.KLossPay

end
-- ==== Proof.KLoss.lean ====
/- The loss kernel's output array, element by element. -/
import proofs.«161003_j88261577933232_1_alg».proof.Proof.KLossPay
import Idealize.ShloMosaic.Lib.Pipeline.Value

noncomputable section

namespace Cert.KernelIdeal.KLoss
open Cert.KernelIdeal Cert.KernelIdeal.Gen Cert.KernelIdeal.KV
open Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

/-- The block indices at grid point t: the two inputs' and the output's blocks are block row 0, block column t;
    the table's block stays at (0, 0). -/
theorem block_index : ∀ t : Fin cfg1.N,
    win1_0.index t (0 : Fin 2) = 0 ∧ win1_0.index t (1 : Fin 2) = t.val
  ∧ win1_1.index t (0 : Fin 2) = 0 ∧ win1_1.index t (1 : Fin 2) = t.val
  ∧ win1_2.index t (0 : Fin 2) = 0 ∧ win1_2.index t (1 : Fin 2) = 0
  ∧ win1_3.index t (0 : Fin 2) = 0 ∧ win1_3.index t (1 : Fin 2) = t.val :=
  (by decide +kernel : ∀ t : Fin grid1.N, _)

/-- What grid point t writes back is block t of the loss array: the inputs' blocks sit where the output's block
    sits, and the table's block is the whole table. -/
theorem written_block (c : Dev nD) (t : Fin cfg1.N) :
    (dat1 (F := Ideal) V c).flushed 3 t
      = ((cfg1.win 3).blk t).view.read (Elt Ideal) (lossArr (V c main_v0) (V c main_v1) (V c main_v20)) := by
  show (cfg1.win 3).cut (grid1.coords t) ((dat1 V c).after 3 t) = _
  rw [after1_3]
  obtain ⟨e00, e01, e10, e11, e20, e21, e30, e31⟩ := block_index t
  funext y
  refine (KLossPay.out1_3_apply _ _ _ _).trans ?_
  have h0 : ((cfg1.win 0).blk t).view.emb y = ((cfg1.win 3).blk t).view.emb y := by
    funext a; apply Fin.ext
    match a with
    | ⟨0, _⟩ => show win1_0.index t (0 : Fin 2) * 16 + 1 * (y 0).val = win1_3.index t (0 : Fin 2) * 16 + 1 * (y 0).val; omega
    | ⟨1, _⟩ => show win1_0.index t (1 : Fin 2) * 16384 + 1 * (y 1).val = win1_3.index t (1 : Fin 2) * 16384 + 1 * (y 1).val; omega
  have h1 : ((cfg1.win 1).blk t).view.emb y = ((cfg1.win 3).blk t).view.emb y := by
    funext a; apply Fin.ext
    match a with
    | ⟨0, _⟩ => show win1_1.index t (0 : Fin 2) * 16 + 1 * (y 0).val = win1_3.index t (0 : Fin 2) * 16 + 1 * (y 0).val; omega
    | ⟨1, _⟩ => show win1_1.index t (1 : Fin 2) * 16384 + 1 * (y 1).val = win1_3.index t (1 : Fin 2) * 16384 + 1 * (y 1).val; omega
  have h2 : ∀ z : S1x128.Idx, ((cfg1.win 2).blk t).view.emb z = z := by
    intro z
    funext a; apply Fin.ext
    match a with
    | ⟨0, _⟩ => show win1_2.index t (0 : Fin 2) * 1 + 1 * (z 0).val = (z 0).val; omega
    | ⟨1, _⟩ => show win1_2.index t (1 : Fin 2) * 128 + 1 * (z 1).val = (z 1).val; omega
  show bce (V c main_v0 (((cfg1.win 0).blk t).view.emb y)) (V c main_v1 (((cfg1.win 1).blk t).view.emb y))
      * V c main_v20 (((cfg1.win 2).blk t).view.emb (ix2 (0 : Fin 1) (clipIdx (binW (V c main_v0 (((cfg1.win 0).blk t).view.emb y)) (V c main_v1 (((cfg1.win 1).blk t).view.emb y))))))
    = lossArr (V c main_v0) (V c main_v1) (V c main_v20) (((cfg1.win 3).blk t).view.emb y)
  rw [h0, h1, h2]
  rfl

/-- An index of the array is in point t's block iff each coordinate is in the block's range on its axis. -/
theorem mem_block (t : Fin cfg1.N) (i : S16x1015808.Idx) :
    i ∈ ((cfg1.win 3).blk t).view.set
      ↔ ∀ a : Fin 2, win1_3.index t a * S16x16384.size a ≤ (i a).val ∧ (i a).val < win1_3.index t a * S16x16384.size a + S16x16384.size a := by
  show i ∈ ((View.whole main_v21).slice (win1_3.rect t)).set ↔ _
  rw [View.set_slice_whole, Rect.mem_set_unit]
  exact Iff.rfl

/-- Every element of the array is in some point's block: column k is in block k / 16384, and 62 · 16384 = 1015808. -/
theorem covered (i : S16x1015808.Idx) :
    ∃ t : Fin cfg1.N, (cfg1.win 3).flush t = true ∧ i ∈ ((cfg1.win 3).blk t).view.set := by
  have hi0 : (i 0).val < 16 := (i 0).isLt
  have hi1 : (i 1).val < 1015808 := (i 1).isLt
  have hN : grid1.N = 62 := N_1
  have ht : (i 1).val / 16384 < cfg1.N := by show (i 1).val / 16384 < grid1.N; rw [hN]; omega
  obtain ⟨e00, e01, e10, e11, e20, e21, e30, e31⟩ := block_index ⟨(i 1).val / 16384, ht⟩
  have e31' : win1_3.index ⟨(i 1).val / 16384, ht⟩ (1 : Fin 2) = (i 1).val / 16384 := e31
  refine ⟨⟨(i 1).val / 16384, ht⟩, flush1_3 _, ?_⟩
  rw [mem_block]
  intro a
  match a with
  | ⟨0, _⟩ => show win1_3.index ⟨(i 1).val / 16384, ht⟩ (0 : Fin 2) * 16 ≤ (i 0).val ∧ (i 0).val < win1_3.index ⟨(i 1).val / 16384, ht⟩ (0 : Fin 2) * 16 + 16; omega
  | ⟨1, _⟩ => show win1_3.index ⟨(i 1).val / 16384, ht⟩ (1 : Fin 2) * 16384 ≤ (i 1).val ∧ (i 1).val < win1_3.index ⟨(i 1).val / 16384, ht⟩ (1 : Fin 2) * 16384 + 16384; omega

/-- The loss kernel's output array after the run: at every element the cross-entropy of the padded inputs times the
    table's lane of the clipped bin. -/
theorem loss_arr (c : Dev nD) :
    ((dat1 (F := Ideal) V c).arrAt 3 cfg1.N : FVec Ideal S16x1015808 .f32) = lossArr (V c main_v0) (V c main_v1) (V c main_v20) :=
  (dat1 V c).arrAt_eq_of_cover 3 (lossArr (V c main_v0) (V c main_v1) (V c main_v20)) (fun t _ => written_block V c t) covered

end Cert.KernelIdeal.KLoss

end
-- ==== Proof.KMathHist.lean ====
/- The histogram kernel's blockwise count is the count over the whole input. -/
import proofs.«161003_j88261577933232_1_alg».proof.Proof.KDefs
import Idealize.ShloMosaic.Lib.KernelVsHost
import Idealize.ShloMosaic.Lib.StableHlo.Predicate
import Mathlib.Logic.Equiv.Fin.Basic
import Mathlib.Data.Fintype.BigOperators
import Mathlib.Algebra.BigOperators.Fin

noncomputable section

namespace Cert.KernelIdeal.KMath
open Cert.KernelIdeal Cert.KernelIdeal.Gen Cert.KernelIdeal.KV
open Idealize.ShloMosaic Idealize.ShloMosaic.TcCoe Idealize.ShloMosaic.ValueIdx Idealize.SL.Sem Cert.Spec
open Idealize.ShloMosaic.Pipeline (Dat Cfg Window)

/-- A bin in 0 … 29 is its own clipped bin. -/
theorem clipW_of_inRange (w : BitVec 32) (h : InRange w) : clipW w = w := by
  obtain ⟨h0, h29⟩ := h
  have e0 : (0#32 : BitVec 32).toInt = 0 := by decide
  have e29 : (29#32 : BitVec 32).toInt = 29 := by decide
  have a : w.slt 0#32 = false := by
    rw [BitVec.slt_eq_decide, e0]; exact decide_eq_false (by omega)
  have c : (29#32 : BitVec 32).slt w = false := by
    rw [BitVec.slt_eq_decide, e29]; exact decide_eq_false (by omega)
  unfold clipW IntOp.minsi IntOp.maxsi
  rw [a]
  simp only [Bool.false_eq_true, if_false]
  rw [c]
  simp only [Bool.false_eq_true, if_false]

/-- A bin in 0 … 29 is the word of b < 30 exactly when it reads b signed. -/
theorem eq_ofNat_iff (w : BitVec 32) (b : Fin 30) : w = BitVec.ofNat 32 b.val ↔ w.toInt = (b.val : Int) := by
  have hb : (BitVec.ofNat 32 b.val).toInt = (b.val : Int) :=
    StableHlo.Predicate.toInt_ofNat_small b.val (by have := b.isLt; omega)
  constructor
  · intro h; rw [h, hb]
  · intro h; exact BitVec.eq_of_toInt_eq (h.trans hb.symm)

/-- A sum over m blocks of n consecutive naturals is the sum over the first m · n naturals. -/
theorem sum_blocks {M : Type*} [AddCommMonoid M] (m n : ℕ) (g : ℕ → M) :
    ∑ s : Fin m, ∑ q : Fin n, g (s.val * n + q.val) = ∑ k ∈ Finset.range (m * n), g k := by
  rw [← Fin.sum_univ_eq_sum_range, ← Equiv.sum_comp finProdFinEquiv, Fintype.sum_prod_type]
  refine Finset.sum_congr rfl fun s _ => Finset.sum_congr rfl fun q _ => ?_
  congr 1
  show s.val * n + q.val = q.val + n * s.val
  rw [Nat.mul_comm, Nat.add_comm]

/-- Row a's term of the count of bin b at a column's number: zero from column 1000000 on. -/
def colTerm (P G : FVec Ideal S16x1000000 .f32) (b : Fin 30) (a : Fin 16) (n : ℕ) : E :=
  if h : n < 1000000 then
    (if (binW (P (ix2 a (⟨n, h⟩ : Fin 1000000))) (G (ix2 a (⟨n, h⟩ : Fin 1000000)))).toInt = (b.val : Int) then oneW else 0)
  else 0

/-- At a real column the padded input is the input. -/
theorem padOf_padIdx (X : FVec Ideal S16x1000000 .f32) (s : Fin 62) (a : Fin 16) (q : Fin 16384)
    (h : s.val * 16384 + q.val < 1000000) :
    padOf X (padIdx s (ix2 a q)) = X (ix2 a (⟨s.val * 16384 + q.val, h⟩ : Fin 1000000)) := by
  unfold padOf
  refine pad_apply_of_inside _ _ _ X _ _ _ _ (ix2 a (⟨s.val * 16384 + q.val, h⟩ : Fin 1000000)) ?_
  intro d
  match d with
  | ⟨0, _⟩ => show a.val = 0 + a.val * (0 + 1); omega
  | ⟨1, _⟩ => show s.val * 16384 + q.val = 0 + (s.val * 16384 + q.val) * (0 + 1); omega

/-- One element's term of the kernel's count is the row's term at the element's column. -/
theorem histTerm_ix2 (P G : FVec Ideal S16x1000000 .f32) (hr : ∀ i, InRange (binW (P i) (G i))) (b : Fin 30)
    (s : Fin 62) (a : Fin 16) (q : Fin 16384) :
    histTerm (padOf P) (padOf G) b s (ix2 a q) = colTerm P G b a (s.val * 16384 + q.val) := by
  unfold histTerm colTerm
  by_cases h : s.val * 16384 + q.val < 1000000
  · have h' : s.val * 16384 + ((ix2 a q : S16x16384.Idx) 1).val < 1000000 := h
    rw [dif_pos h, padOf_padIdx P s a q h, padOf_padIdx G s a q h, clipW_of_inRange _ (hr _)]
    simp only [eq_ofNat_iff, h', and_true]
  · rw [dif_neg h, if_neg (fun hc => h hc.2)]

/-- With every bin in range, the terms of the 62 blocks of the padded inputs sum to the number of elements in bin b. -/
theorem hist_sum (P G : FVec Ideal S16x1000000 .f32) (hr : ∀ i, InRange (binW (P i) (G i))) (b : Fin 30) :
    ∑ s : Fin 62, ∑ y : S16x16384.Idx, histTerm (padOf P) (padOf G) b s y = Spec.hist P G b := by
  have hL : ∀ s : Fin 62, ∑ y : S16x16384.Idx, histTerm (padOf P) (padOf G) b s y
      = ∑ a : Fin 16, ∑ q : Fin 16384, colTerm P G b a (s.val * 16384 + q.val) := by
    intro s
    rw [sum_idx2]
    exact Finset.sum_congr rfl fun a _ => Finset.sum_congr rfl fun q _ => histTerm_ix2 P G hr b s a q
  rw [Finset.sum_congr rfl fun s _ => hL s, Finset.sum_comm]
  unfold Spec.hist
  rw [sum_idx2]
  refine Finset.sum_congr rfl fun a _ => ?_
  rw [sum_blocks 62 16384 (colTerm P G b a)]
  rw [← Finset.sum_subset (s₁ := Finset.range 1000000) (Finset.range_subset_range.2 (by norm_num)) ?_,
    ← Fin.sum_univ_eq_sum_range]
  · refine Finset.sum_congr rfl fun k _ => ?_
    unfold colTerm
    rw [dif_pos k.isLt]
  · intro x _ hx
    unfold colTerm
    rw [dif_neg (by simpa using hx)]

end Cert.KernelIdeal.KMath

end
-- ==== Proof.KMathHost.lean ====
/- The kernel program's host operations read at an index. -/
import proofs.«161003_j88261577933232_1_alg».proof.Proof.KDefs
import Idealize.ShloMosaic.Lib.KernelVsHost

noncomputable section

namespace Cert.KernelIdeal.KMath
open Cert.KernelIdeal Cert.KernelIdeal.Gen Cert.KernelIdeal.KV
open Idealize.ShloMosaic Idealize.ShloMosaic.TcCoe Idealize.ShloMosaic.ValueIdx Idealize.SL.Sem Cert.Spec
open Idealize.ShloMosaic.Pipeline (Dat Cfg Window)

/-- The padded copy at a real column is the input. -/
theorem padOf_apply (X : FVec Ideal S16x1000000 .f32) (i : S16x1000000.Idx) :
    padOf X (ix2 (⟨(i 0).val, (i 0).isLt⟩ : Fin 16) (⟨(i 1).val, Nat.lt_trans (i 1).isLt (by decide)⟩ : Fin 1015808)) = X i := by
  unfold padOf
  refine pad_apply_of_inside _ _ _ _ _ _ _ _ i (fun a => ?_)
  match a with
  | ⟨0, _⟩ => simp
  | ⟨1, _⟩ => simp

/-- The slice reads the padded array at the same row and column. -/
theorem sliceOf_apply (L : FVec Ideal S16x1015808 .f32) (i : S16x1000000.Idx) :
    sliceOf L i = L (ix2 (⟨(i 0).val, (i 0).isLt⟩ : Fin 16) (⟨(i 1).val, Nat.lt_trans (i 1).isLt (by decide)⟩ : Fin 1015808)) := by
  unfold sliceOf
  refine extractStridedSlice_apply _ _ _ i _ (fun a => ?_)
  match a with
  | ⟨0, _⟩ => simp
  | ⟨1, _⟩ => simp

/-- A bin in range is its own clip, so its table lane is its table index. -/
theorem clipIdx_of_inRange (w : BitVec 32) (h : InRange w) : clipIdx w = (⟨(binIdx w).val, by omega⟩ : Fin 128) := by
  obtain ⟨h0, h29⟩ := h
  have hs0 : w.slt 0#32 = false := by
    unfold BitVec.slt
    have e : (0#32 : BitVec 32).toInt = 0 := by decide
    rw [e]; exact decide_eq_false (by omega)
  have hs29 : (29#32 : BitVec 32).slt w = false := by
    unfold BitVec.slt
    have e : (29#32 : BitVec 32).toInt = 29 := by decide
    rw [e]; exact decide_eq_false (by omega)
  have hclip : clipW w = w := by
    unfold clipW IntOp.minsi IntOp.maxsi
    simp [hs0, hs29]
  refine Fin.ext ?_
  show (clipW w).toNat % 128 = min w.toInt.toNat 29
  rw [hclip]
  have hlt := w.isLt
  have hi := BitVec.toInt_eq_toNat_cond w
  split at hi <;> omega

/-- The scatter indices of the weights table. -/
private abbrev tblIdx : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

/-- The scatter indices: both words are zero. -/
private theorem idx_zero (k : S2.Idx) : tblIdx k = 0#32 := by
  have hk : (k 0).val < 2 := (k 0).isLt
  by_cases h0 : (k 0).val = 0
  · refine (concatenate_pair_apply_left (t := S2) (s₁ := S1) (s₂ := S1) (0 : Fin 1) _ _ concatenates_S1_S1_S2_d0 k rfl (ix1 (0 : Fin 1)) (fun b => by
      match b with
      | ⟨0, _⟩ => exact h0.symm)).trans ?_
    rfl
  · refine (concatenate_pair_apply_right (t := S2) (s₁ := S1) (s₂ := S1) (0 : Fin 1) _ _ concatenates_S1_S1_S2_d0 k rfl rfl (ix1 (0 : Fin 1)) (fun b hb => by
      match b with
      | ⟨0, _⟩ => exact absurd rfl hb) (by
      show 0 + 1 = (k 0).val
      omega)).trans ?_
    rfl

/-- Every window of the table's scatter starts at (0, 0): both components of the one scatter index are zero. -/
private theorem tbl_start (j : S30.Idx) (a : Fin 2) : scatter_S1x128_S2_S30_0_0_01_0.start j tblIdx a = 0 := by
  unfold ScatterDims.start
  have hall : ∀ a : Fin 2, a ∈ ([0, 1] : List (Fin 2)) := by decide
  have ha : a ∈ scatter_S1x128_S2_S30_0_0_01_0.scatterDimsToOperandDims := hall a
  rw [dif_pos ha, idx_zero]
  rfl

/-- The table's row axis is inserted: no window coordinate. -/
private theorem tbl_window0 (j : S30.Idx) : scatter_S1x128_S2_S30_0_0_01_0.window j 0 = 0 := by
  unfold ScatterDims.window
  have h0 : (0 : Fin 2) ∉ scatter_S1x128_S2_S30_0_0_01_0.sKept := by decide
  rw [dif_neg h0]

/-- The table's lane axis carries the update's coordinate. -/
private theorem tbl_window1 (j : S30.Idx) : scatter_S1x128_S2_S30_0_0_01_0.window j 1 = (j 0).val := by
  unfold ScatterDims.window
  have h1 : (1 : Fin 2) ∈ scatter_S1x128_S2_S30_0_0_01_0.sKept := by decide
  rw [dif_pos h1]
  rfl

/-- The table element update j lands on: row 0, lane j. -/
private def lane (j : S30.Idx) : S1x128.Idx :=
  ix2 (0 : Fin 1) (⟨(j 0).val, by have h : (j 0).val < 30 := (j 0).isLt; omega⟩ : Fin 128)

/-- Update j lands on (0, j): start (0, 0) plus the window coordinate (0, j), inside the table. -/
private theorem tbl_resultIdx (j : S30.Idx) : scatter_S1x128_S2_S30_0_0_01_0.resultIdx? j tblIdx = some (lane j) := by
  have hj : (j 0).val < 30 := (j 0).isLt
  unfold ScatterDims.resultIdx?
  have hb : ∀ a, 0 ≤ scatter_S1x128_S2_S30_0_0_01_0.start j tblIdx a + (scatter_S1x128_S2_S30_0_0_01_0.window j a : Int)
      ∧ scatter_S1x128_S2_S30_0_0_01_0.start j tblIdx a + (scatter_S1x128_S2_S30_0_0_01_0.window j a : Int) < (S1x128.size a : Int) := by
    intro a
    match a with
    | ⟨0, _⟩ =>
      show 0 ≤ scatter_S1x128_S2_S30_0_0_01_0.start j tblIdx 0 + (scatter_S1x128_S2_S30_0_0_01_0.window j 0 : Int)
        ∧ scatter_S1x128_S2_S30_0_0_01_0.start j tblIdx 0 + (scatter_S1x128_S2_S30_0_0_01_0.window j 0 : Int) < ((1 : Nat) : Int)
      rw [tbl_start, tbl_window0]; omega
    | ⟨1, _⟩ =>
      show 0 ≤ scatter_S1x128_S2_S30_0_0_01_0.start j tblIdx 1 + (scatter_S1x128_S2_S30_0_0_01_0.window j 1 : Int)
        ∧ scatter_S1x128_S2_S30_0_0_01_0.start j tblIdx 1 + (scatter_S1x128_S2_S30_0_0_01_0.window j 1 : Int) < ((128 : Nat) : Int)
      rw [tbl_start, tbl_window1]; omega
  rw [dif_pos hb]
  congr 1
  funext a
  refine Fin.ext ?_
  match a with
  | ⟨0, _⟩ =>
    show (scatter_S1x128_S2_S30_0_0_01_0.start j tblIdx 0 + (scatter_S1x128_S2_S30_0_0_01_0.window j 0 : Int)).toNat = 0
    rw [tbl_start, tbl_window0]; rfl
  | ⟨1, _⟩ =>
    show (scatter_S1x128_S2_S30_0_0_01_0.start j tblIdx 1 + (scatter_S1x128_S2_S30_0_0_01_0.window j 1 : Int)).toNat = (j 0).val
    rw [tbl_start, tbl_window1]; omega

/-- Distinct updates land on distinct lanes. -/
private theorem lane_injective : Function.Injective lane := by
  intro j j' e
  have e1 : (j 0).val = (j' 0).val := congrArg (fun f : S1x128.Idx => (f 1).val) e
  rw [eq_ix1 j, eq_ix1 j']
  exact congrArg ix1 (Fin.ext e1)

section SetFold
variable {α : Type} {s si u : Shape} {w : Nat}

/-- The fold of a scatter's step whose body keeps the update, over ANY list of update positions, when update n lands
    on tgt n and tgt is one-to-one: read at tgt p it is update p when p is in the list, and the start value when not. -/
private theorem foldl_set_apply (d : ScatterDims s si u) (f : α → α → α) (hf : ∀ a b, f a b = b) (idx : IVec si w) (upd : u.Idx → α)
    (tgt : Fin u.numel → s.Idx) (htgt : Function.Injective tgt)
    (hres : ∀ n, d.resultIdx? (u.rowMajor.symm n) idx = some (tgt n)) (l : List (Fin u.numel)) (x : s.Idx → α) (p : Fin u.numel) :
    (l.foldl (fun r n =>
        match d.resultIdx? (u.rowMajor.symm n) idx with
        | some i => fun i' => if i' = i then f (r i) (upd (u.rowMajor.symm n)) else r i'
        | none => r) x) (tgt p) = if p ∈ l then upd (u.rowMajor.symm p) else x (tgt p) := by
  induction l generalizing x with
  | nil => simp
  | cons n l ih =>
    rw [List.foldl_cons, ih]
    by_cases hp : p ∈ l
    · rw [if_pos hp, if_pos (List.mem_cons_of_mem _ hp)]
    · rw [if_neg hp]
      simp only [hres n, hf]
      by_cases hpn : p = n
      · subst hpn; simp
      · have hne : tgt p ≠ tgt n := fun e => hpn (htgt e)
        have hnm : p ∉ n :: l := by simp [hp, hpn]
        rw [if_neg hne, if_neg hnm]

/-- A scatter whose body keeps the update, when update n lands on tgt n and tgt is one-to-one: the element tgt p
    holds update p. -/
private theorem scatter_set_apply (d : ScatterDims s si u) (f : α → α → α) (hf : ∀ a b, f a b = b) (x : s.Idx → α) (idx : IVec si w)
    (upd : u.Idx → α) (tgt : Fin u.numel → s.Idx) (htgt : Function.Injective tgt)
    (hres : ∀ n, d.resultIdx? (u.rowMajor.symm n) idx = some (tgt n)) (p : Fin u.numel) :
    Host.scatter d f x idx upd (tgt p) = upd (u.rowMajor.symm p) := by
  unfold Host.scatter
  exact (foldl_set_apply d f hf idx upd tgt htgt hres (List.finRange u.numel) x p).trans (if_pos (List.mem_finRange p))

end SetFold

/-- Lane b < 30 of the weights table is weight b. -/
theorem table_lane (H : FVec Ideal S1x128 .f32) (M : IVec S16x1000000 1) (b : Fin 30) :
    tableOf H M (ix2 (0 : Fin 1) (⟨b.val, by omega⟩ : Fin 128)) = weightsOf H M (ix1 b) := by
  unfold tableOf
  have htgt : Function.Injective (fun n : Fin S30.numel => lane (S30.rowMajor.symm n)) :=
    lane_injective.comp S30.rowMajor.symm.injective
  have key := scatter_set_apply scatter_S1x128_S2_S30_0_0_01_0 (fun _ b => b) (fun _ _ => rfl)
    (broadcastInDim S1x128 ![] bcast_S_S1x128 (constant (F := Ideal) S_ .f32 0x00000000#32)) tblIdx (weightsOf H M)
    (fun n : Fin S30.numel => lane (S30.rowMajor.symm n)) htgt (fun n => tbl_resultIdx _) (S30.rowMajor (ix1 b))
  simp only [Equiv.symm_apply_apply] at key
  exact key

/-- A rank-1 index set is its coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A host sum down to a scalar adds every element to the initial value: every index reduces to the one scalar index. -/
private theorem hostReduceAdd_scalar {s : Shape} {axes : List (Fin s.rank)} (h : s.ReducesTo axes S_) (x : s.Idx → EReal) (init : EReal)
    (k : S_.Idx) : Ideal.hostReduceAdd h x init k = init + ∑ i, x i := by
  unfold Ideal.hostReduceAdd
  rw [Finset.filter_true_of_mem (fun i _ => (eq_ix0 _).trans (eq_ix0 _).symm)]

/-- The mask sum is the specification's mask count. -/
private theorem maskSum_eq (M : IVec S16x1000000 1) (k : S_.Idx) : maskSum M k = Spec.maskCount M := by
  unfold maskSum Spec.maskCount
  show Ideal.hostReduceAdd reducesTo_S16x1000000_S_d0_1 (uitofp (F := Ideal) .f32 M) (Ideal.ofBits .f32 0x00000000#32) k = _
  rw [hostReduceAdd_scalar, Ideal.ofBits_zero_f32, zero_add]
  rfl

/-- The non-empty sum is the specification's count of non-empty bins. -/
private theorem nonEmptySum_eq (h : FVec Ideal S30 .f32) (k : S_.Idx) :
    nonEmptySum h k = Spec.nonEmpty (fun b => h (ix1 b)) := by
  unfold nonEmptySum Spec.nonEmpty
  show Ideal.hostReduceAdd reducesTo_S30_S_d0 (uitofp (F := Ideal) .f32 (cmpf (F := Ideal) .ogt h
    (broadcastInDim S30 ![] bcast_S_S30 (constant (F := Ideal) S_ .f32 0x00000000#32)))) (Ideal.ofBits .f32 0x00000000#32) k = _
  rw [hostReduceAdd_scalar, Ideal.ofBits_zero_f32, zero_add, sum_idx1]
  rfl

/-- Lane b of the sliced, reshaped histogram array is its element (0, b). -/
private theorem lanesOf_apply (H : FVec Ideal S1x128 .f32) (b : Fin 30) :
    lanesOf H (ix1 b) = H (ix2 (0 : Fin 1) (⟨b.val, by omega⟩ : Fin 128)) := by
  unfold lanesOf
  refine (shapeCast_apply _ shapeCasts_S1x30_S30 (ix1 b) (ix2 (0 : Fin 1) b) ?_).trans ?_
  · rw [Shape.rowMajor_val_two, Shape.rowMajor_val_one]
    simp
  · refine extractStridedSlice_apply _ _ _ _ _ (fun a => ?_)
    match a with
    | ⟨0, _⟩ => simp
    | ⟨1, _⟩ => simp

/-- When the histogram array's first 30 lanes hold the histogram, the weights are the specification's. -/
theorem weights_eq (H : FVec Ideal S1x128 .f32) (P G : FVec Ideal S16x1000000 .f32) (M : IVec S16x1000000 1)
    (hH : ∀ b : Fin 30, H (ix2 (0 : Fin 1) (⟨b.val, by omega⟩ : Fin 128)) = Spec.hist P G b) (b : Fin 30) :
    weightsOf H M (ix1 b) = Spec.weight P G M b := by
  have hl : (fun c : Fin 30 => lanesOf H (ix1 c)) = Spec.hist P G := funext fun c => (lanesOf_apply H c).trans (hH c)
  unfold weightsOf Spec.weight
  show Ideal.div (broadcastInDim S30 ![] bcast_S_S30 (maskSum M) (ix1 b))
      (max (broadcastInDim S30 ![] bcast_S_S30 (constant (F := Ideal) S_ .f32 0x3A800000#32) (ix1 b))
        (lanesOf H (ix1 b) * broadcastInDim S30 ![] bcast_S_S30 (nonEmptySum (lanesOf H)) (ix1 b))) = _
  rw [broadcastInDim_apply ![] bcast_S_S30 (maskSum M) (ix1 b) ix0 (fun a => a.elim0),
    broadcastInDim_apply ![] bcast_S_S30 (constant (F := Ideal) S_ .f32 0x3A800000#32) (ix1 b) ix0 (fun a => a.elim0),
    broadcastInDim_apply ![] bcast_S_S30 (nonEmptySum (lanesOf H)) (ix1 b) ix0 (fun a => a.elim0),
    maskSum_eq, nonEmptySum_eq, hl, lanesOf_apply, hH]
  rfl

end Cert.KernelIdeal.KMath

end
-- ==== Proof.KValue.lean ====
/- The kernel program's result buffer after the run is the specification's result, when every bin is in range. -/
import proofs.«161003_j88261577933232_1_alg».proof.Proof.KFold
import proofs.«161003_j88261577933232_1_alg».proof.Proof.KHist
import proofs.«161003_j88261577933232_1_alg».proof.Proof.KLoss
import proofs.«161003_j88261577933232_1_alg».proof.Proof.KMathHist
import proofs.«161003_j88261577933232_1_alg».proof.Proof.KMathHost

noncomputable section

namespace Cert.KernelIdeal.KValue
open Cert.KernelIdeal Cert.KernelIdeal.Gen Cert.KernelIdeal.Facts₀ Cert.KernelIdeal.Facts Cert.KernelIdeal.KV
open Idealize.ShloMosaic Idealize.ShloMosaic.TcCoe Idealize.ShloMosaic.ValueIdx Idealize.SL.Sem Cert.Spec
open Idealize.ShloMosaic.Pipeline (Dat Cfg Window)

variable (m : (ℓ : Loc nD τ sig) → Buf (Elt Ideal) ℓ) (ρ : Dev nD → PrngReg)

/-- The histogram kernel's output array holds the histogram in its first 30 lanes: its blockwise counts over the
    padded inputs add up to the counts over the inputs. -/
theorem hist_lanes (c : Dev nD) (P G : FVec Ideal S16x1000000 .f32)
    (hP : m ((c : Thread nD τ).loc main_arg0) = P) (hG : m ((c : Thread nD τ).loc main_arg1) = G)
    (hr : ∀ i, InRange (binW (P i) (G i))) (b : Fin 30) :
    ((dat0 (F := Ideal) (V4 m ρ) c).arrAt 2 cfg0.N : FVec Ideal S1x128 .f32) (ix2 (0 : Fin 1) (⟨b.val, by omega⟩ : Fin 128))
      = Spec.hist P G b := by
  rw [KHist.hist_lane (V4 m ρ) c b, KFold.V4_main_v0, KFold.V4_main_v1, hP, hG]
  exact KMath.hist_sum P G hr b

/-- The result buffer: the slice of the loss kernel's array over the padded inputs and the weights table, read at an
    element — the padding and the slice cancel, the clipped bin is the bin, the table's lane is the weight. -/
theorem kernel_value (c : Dev nD) (P G : FVec Ideal S16x1000000 .f32) (M : IVec S16x1000000 1)
    (hP : m ((c : Thread nD τ).loc main_arg0) = P) (hG : m ((c : Thread nD τ).loc main_arg1) = G)
    (hM : m ((c : Thread nD τ).loc main_arg2) = M)
    (hr : ∀ i, InRange (binW (P i) (G i))) :
    W10 (F := Ideal) m ρ c (Proc.devRef .tc main_v22) = Spec.result P G M := by
  rw [KFold.W10_result, KLoss.loss_arr, KFold.V8_main_v0, KFold.V8_main_v1, KFold.V8_main_v20, hP, hG, hM]
  funext i
  rw [KMath.sliceOf_apply]
  unfold lossArr
  dsimp only
  rw [KMath.padOf_apply, KMath.padOf_apply, KMath.clipIdx_of_inRange _ (hr i),
    KMath.table_lane _ _ (binIdx (binW (P i) (G i))),
    KMath.weights_eq _ P G M (hist_lanes m ρ c P G hP hG hr)]
  rfl

end Cert.KernelIdeal.KValue

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.RefValue.lean ====
/- The reference's result, element by element, is the specification's. -/
import proofs.«161003_j88261577933232_1_alg».proof.Proof.RefRead
import proofs.«161003_j88261577933232_1_alg».proof.Proof.Spec
import proofs.«161003_j88261577933232_1_alg».proof.Proof.LibRows
import Idealize.ShloMosaic.Lib.StableHlo.Predicate
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Spec
open Cert.ReferenceIdeal.ReadP Idealize.ShloMosaic.StableHlo
open scoped BigOperators

/-! ## The bin and the cross-entropy of one element -/

/-- The reference's bin of an element is the specification's. -/
theorem bins_apply (P G : FVec Ideal S16x1000000 .f32) (i : S16x1000000.Idx) :
    val_main_v5 (F := Ideal) P G i = binW (P i) (G i) := by
  rw [val_main_v5_apply, val_main_v4_apply, val_main_v3_apply, val_main_v2_apply, val_main_v1_apply, val_main_v0_apply]
  rfl

/-- The reference's loss factor of an element is the specification's cross-entropy. -/
theorem bce_apply (P G : FVec Ideal S16x1000000 .f32) (i : S16x1000000.Idx) :
    val_main_v40 (F := Ideal) P G i = bce (P i) (G i) := by
  rw [val_main_v40_apply, val_main_v39_apply, val_main_v33_apply, val_main_v32_apply, val_main_v38_apply,
    val_main_v35_apply, val_main_v34_apply, val_main_v37_apply, val_main_v36_apply, val_main_v31_apply,
    val_main_call1_v2_apply, val_main_call1_v1_apply, val_main_call1_v0_apply]
  rfl

/-! ## Row-major positions -/

/-- The row-major position of an element of the [16, 1000000] arrays. -/
def flatEquiv : S16x1000000.Idx ≃ Fin 16000000 where
  toFun i := ⟨(i 0).val * 1000000 + (i 1).val, by
    have h0 : (i 0).val < 16 := (i 0).isLt
    have h1 : (i 1).val < 1000000 := (i 1).isLt
    omega⟩
  invFun p := ix2 (⟨p.val / 1000000, by have := p.isLt; omega⟩ : Fin 16) (⟨p.val % 1000000, Nat.mod_lt _ (by decide)⟩ : Fin 1000000)
  left_inv i := by
    have h0 : (i 0).val < 16 := (i 0).isLt
    have h1 : (i 1).val < 1000000 := (i 1).isLt
    funext a
    match a with
    | ⟨0, _⟩ => exact Fin.ext (by show ((i 0).val * 1000000 + (i 1).val) / 1000000 = (i 0).val; omega)
    | ⟨1, _⟩ => exact Fin.ext (by show ((i 0).val * 1000000 + (i 1).val) % 1000000 = (i 1).val; omega)
  right_inv p := Fin.ext (by show p.val / 1000000 * 1000000 + p.val % 1000000 = p.val; omega)

theorem card_idx : Fintype.card S16x1000000.Idx = 16000000 := by
  rw [Fintype.card_congr flatEquiv, Fintype.card_fin]

theorem card_idx30 : Fintype.card S30.Idx = 30 := by
  rw [Fintype.card_congr Cert.LibRows.idxEquiv1, Fintype.card_fin]

/-! ## The histogram -/

/-- The scatter-add of ones at the flattened bins is the specification's histogram. -/
theorem hist_apply (P G : FVec Ideal S16x1000000 .f32) (b : Fin 30) :
    val_main_v10 (F := Ideal) P G (ix1 b) = hist P G b := by
  unfold val_main_v10
  refine (Cert.LibRows.rowScatterAdd1_apply (n := 30) (e := 16000000)
    Facts₀.scatter_S30_S16000000x1_S16000000_n_0_0_1_wf (val_main_v8 (F := Ideal)) (val_main_v9 (F := Ideal) P G)
    (val_main_v7 (F := Ideal)) b).trans ?_
  rw [val_main_v8_apply, val_main_cst_1_apply]
  have h0 : (FloatOps.ofBits (F := Ideal) .f32 0x00000000#32) = 0 := Ideal.ofBits_zero_f32
  rw [h0, zero_add]
  unfold hist
  refine Eq.trans ?_ (Equiv.sum_comp flatEquiv.symm
    (fun i : S16x1000000.Idx => if (binW (P i) (G i)).toInt = (b.val : Int) then oneW else 0))
  refine Finset.sum_congr rfl fun p _ => ?_
  have hidx : idx_main_v6 (idx_main_v9 (ix2 p (0 : Fin 1))) = flatEquiv.symm p := by
    funext a
    match a with
    | ⟨0, _⟩ => rfl
    | ⟨1, _⟩ => rfl
  rw [val_main_v9_apply, val_main_v6_apply, bins_apply, val_main_v7_apply, val_main_cst_0_apply, hidx]
  rfl

/-! ## Integer counts -/

/-- The coercion of the reals into the extended reals goes through finite sums. -/
theorem ereal_coe_sum {ι : Type*} (s : Finset ι) (f : ι → ℝ) :
    ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- A widened bit is worth the bit. -/
theorem toNat_setWidth_one (c : BitVec 1) : (c.setWidth 32).toNat = c.toNat := by
  rcases BitVec.eq_zero_or_eq_one c with rfl | rfl <;> rfl

/-- A bit is worth at most one. -/
theorem toNat_bit_le (c : BitVec 1) : c.toNat ≤ 1 := by
  rcases BitVec.eq_zero_or_eq_one c with rfl | rfl <;> decide

/-- The 32-bit sum of a whole array of words worth at most one each, over fewer than 2³¹ elements, read signed, is
    the sum of their values: nothing wraps. -/
theorem toInt_reduce_all {s u : Shape} {axes : List (Fin s.rank)} (x : IVec s 32) (init : u.Idx → BitVec 32)
    (hinit : ∀ k, init k = 0#32) (h : s.ReducesTo axes S_) (hu : 0 < u.numel) (j : S_.Idx)
    (hx : ∀ i, (x i).toNat ≤ 1) (hc : Fintype.card s.Idx < 2 ^ 31) :
    (Host.reduce IntOp.addi x init h hu j).toInt = ((∑ i, (x i).toNat : ℕ) : ℤ) := by
  classical
  rw [Host.reduce_eq_fold, hinit]
  have hall : (Finset.univ.filter fun i => h.drop i = j) = Finset.univ :=
    Finset.filter_true_of_mem fun i _ => funext fun a => a.elim0
  rw [hall]
  have hle : ∑ i, (x i).toNat ≤ Fintype.card s.Idx := by
    calc ∑ i, (x i).toNat ≤ ∑ i : s.Idx, 1 := Finset.sum_le_sum fun i _ => hx i
      _ = Fintype.card s.Idx := by rw [Finset.sum_const, Finset.card_univ, smul_eq_mul, mul_one]
  have hfold := Predicate.toNat_fold_addi Finset.univ x (by omega)
  rw [Predicate.toInt_eq_toNat_of_lt (by rw [hfold]; omega), hfold]

/-- The converted integer sum of the widened mask is the specification's mask count. -/
theorem maskCount_apply (M : IVec S16x1000000 1) (j : S_.Idx) :
    val_main_v13 (F := Ideal) M j = maskCount M := by
  rw [val_main_v13_apply]
  show (((val_main_v12 (F := Ideal) M j).toInt : ℝ) : EReal) = _
  unfold val_main_v12
  rw [toInt_reduce_all (val_main_v11 (F := Ideal) M) (val_main_c (F := Ideal)) (fun _ => rfl) _ _ j
    (fun i => by rw [val_main_v11_apply, toNat_setWidth_one]; exact toNat_bit_le _) (by rw [card_idx]; decide)]
  unfold maskCount
  rw [Int.cast_natCast, Nat.cast_sum, ereal_coe_sum]
  refine Finset.sum_congr rfl fun i _ => ?_
  rw [val_main_v11_apply, toNat_setWidth_one]

/-- The converted integer sum of the widened comparisons is the specification's count of non-empty bins. -/
theorem nonEmpty_apply (P G : FVec Ideal S16x1000000 .f32) (j : S_.Idx) :
    val_main_v18 (F := Ideal) P G j = nonEmpty (hist P G) := by
  rw [val_main_v18_apply]
  show (((val_main_v17 (F := Ideal) P G j).toInt : ℝ) : EReal) = _
  unfold val_main_v17
  rw [toInt_reduce_all (val_main_v16 (F := Ideal) P G) (val_main_c_3 (F := Ideal)) (fun _ => rfl) _ _ j
    (fun i => by rw [val_main_v16_apply, toNat_setWidth_one]; exact toNat_bit_le _) (by rw [card_idx30]; decide)]
  unfold nonEmpty
  rw [Int.cast_natCast, Nat.cast_sum, ereal_coe_sum, Cert.LibRows.sum_idx1]
  refine Finset.sum_congr rfl fun b _ => ?_
  rw [val_main_v16_apply, toNat_setWidth_one, val_main_v15_apply, hist_apply, val_main_v14_apply, val_main_cst_2_apply]
  rfl

/-! ## The weights and their gather -/

/-- The reference's weight of bin b is the specification's. -/
theorem weight_apply (P G : FVec Ideal S16x1000000 .f32) (M : IVec S16x1000000 1) (b : Fin 30) :
    val_main_v23 (F := Ideal) P G M (ix1 b) = weight P G M b := by
  rw [val_main_v23_apply, val_main_v22_apply, maskCount_apply, val_main_v21_apply, val_main_call0_v0_apply,
    val_main_cst_4_apply, val_main_v20_apply, hist_apply, val_main_v19_apply, nonEmpty_apply]
  rfl

/-- A word that is not negative, read signed, is not below zero. -/
theorem slt_zero_of_nonneg (w : BitVec 32) (h : 0 ≤ w.toInt) : IntOp.cmpi .slt w 0#32 = 0#1 := by
  have hs : w.slt 0#32 = false := by
    simp only [BitVec.slt, BitVec.toInt_zero, decide_eq_false_iff_not, not_lt]
    exact h
  show BitVec.ofBool (w.slt 0#32) = 0#1
  rw [hs]
  rfl

/-- With the bin in range the gather reads the weight of the element's bin. -/
theorem gather_apply (P G : FVec Ideal S16x1000000 .f32) (M : IVec S16x1000000 1) (i : S16x1000000.Idx)
    (hi : InRange (binW (P i) (G i))) :
    val_main_v30 (F := Ideal) P G M i = weight P G M (binIdx (binW (P i) (G i))) := by
  unfold val_main_v30
  refine (gather_take_apply (N := 30) (R := 16) (C := 1000000) (by decide)
    Facts₀.gather_S30_S16x1000000x1_S16x1000000_n_0_n_n_0_2_1_wf (val_main_v23 (F := Ideal) P G M)
    (val_main_v29 (F := Ideal) P G) i).trans ?_
  have hsel : val_main_v29 (F := Ideal) P G (takeIdx i) = binW (P i) (G i) := by
    have hidx : idx_main_v29 (takeIdx i) = i := by
      funext a
      match a with
      | ⟨0, _⟩ => rfl
      | ⟨1, _⟩ => rfl
    rw [val_main_v29_apply, hidx, val_main_v28_apply, val_main_v25_apply, val_main_v24_apply, val_main_c_5_apply,
      bins_apply, slt_zero_of_nonneg _ hi.1, select_zero]
  simp only [hsel]
  exact weight_apply P G M (binIdx _)

/-- With every bin in range the reference computes the specification's result. -/
theorem ref_value (P G : FVec Ideal S16x1000000 .f32) (M : IVec S16x1000000 1) (hr : ∀ i, InRange (binW (P i) (G i))) :
    Cert.ReferenceIdeal.ReadP.val_main_v41 (F := Ideal) P G M = Spec.result P G M := by
  funext i
  rw [val_main_v41_apply, bce_apply, gather_apply P G M i (hr i)]
  rfl

end Cert.ReferenceIdeal.RefValue

end
-- ==== Proof.PreDecode.lean ====
/- The precondition read: every element's bin lies in 0 … 29. -/
import proofs.«161003_j88261577933232_1_alg».proof.Proof.Gen.Pre_finite_inputs
import proofs.«161003_j88261577933232_1_alg».proof.Proof.Spec
import Idealize.ShloMosaic.Lib.ReduceAll

noncomputable section

namespace Cert.PreDecode

open Cert.Pre_finite_inputs Idealize.ShloMosaic Idealize.ShloMosaic.ValueIdx Cert.Spec

/-- The rank-0 shape has one index: there is no axis to tell two indices apart. -/
theorem subsingleton_scalar_idx : Subsingleton S_.Idx := ⟨fun a b => funext fun d => d.elim0⟩

/-- The integer array the precondition compares with 0 and 29 holds, at each element, that element's bin: every
    operation that builds it acts element by element, and the broadcast scalar is the scale literal. -/
theorem bins_apply (P G : FVec Ideal S16x1000000 .f32) (i : S16x1000000.Idx) :
    fptosi 32 (Host.floor (mulf (Host.absf (subf P G))
      (broadcastInDim S16x1000000 ![] Facts.bcast_S_S16x1000000 (constant (F := Ideal) S_ .f32 0x41EFFE00#32)))) i
      = binW (P i) (G i) := rfl

/-- A word that tests signed-at-least 0 and signed-at-most 29 is a bin in range. -/
theorem inRange_of_cmpi {w : BitVec 32} (hge : IntOp.cmpi .sge w 0#32 = 1#1) (hle : IntOp.cmpi .sle w 29#32 = 1#1) :
    InRange w := by
  have h0 : (0#32 : BitVec 32).toInt = 0 := by decide
  have h29 : (29#32 : BitVec 32).toInt = 29 := by decide
  have a := IntOp.cmpi_sge.1 hge
  have b := IntOp.cmpi_sle.1 hle
  rw [h0] at a
  rw [h29] at b
  exact ⟨a, b⟩

/-- The precondition's third conjunct, element by element. -/
theorem bins_inRange (P G : FVec Ideal S16x1000000 .f32) (M : IVec S16x1000000 1)
    (h : Cert.Pre_finite_inputs.fn (F := Ideal) P G M = fun _ => 1#1) : ∀ i, InRange (binW (P i) (G i)) := by
  intro i
  have h0 := congrFun h (fun a => a.elim0)
  dsimp only [fn, fn_part1] at h0
  -- the third conjunct, and of its reduction by "and" the element at i
  have h3 := (IntOp.andi_eq_one.1 h0).2
  haveI := subsingleton_scalar_idx
  have hi := Host.reduce_andi_all _ _ _ _ _ h3 i
  -- that element is the "and" of the two comparisons of the bin at i, with 0 and with 29
  obtain ⟨hge, hle⟩ := IntOp.andi_eq_one.1 hi
  rw [← bins_apply P G i]
  exact inRange_of_cmpi hge hle

end Cert.PreDecode

end
-- ==== Proof.lean ====
/-
  The certificate of a two-kernel weighted cross-entropy against its jnp reference, over the extended reals.

  Both programs bin every element of the two [16, 1000000] inputs by ⌊|p − g| · (30 − 2⁻¹⁰)⌋, count the elements
  per bin, weight bin b by (number of set mask bits) / max(2⁻¹⁰, count b · number of non-empty bins), and return
  each element's binary cross-entropy times the weight of its bin. The kernel program pads the inputs to 62 column
  blocks of 16384, counts per block in a first kernel (an accumulator over the grid, the padding masked off by the
  column number), builds a [1, 128] table of the weights on the host, and in a second kernel selects each element's
  weight by 30 one-hot products over its bin CLIPPED into 0 … 29; the reference scatters ones into 30 bins and
  gathers the weights back. Under the precondition that every bin lies in 0 … 29 the clip is the identity, the
  blockwise counts add up to the scatter's counts, and the one-hot sum is the gather: the two results are one
  function of the inputs (`Spec.result`). No law of the extended reals that needs finiteness is used.

  The frames of the two kernel programs are the generated ones; the reference's frame is its run with the result
  dropped; the ideal pass rewrote nothing, so `preserves` is trivial.
-/
import proofs.«161003_j88261577933232_1_alg».proof.Defs
import proofs.«161003_j88261577933232_1_alg».proof.Proof.Gen.Kernel
import proofs.«161003_j88261577933232_1_alg».proof.Proof.Gen.Kernel.Frame
import proofs.«161003_j88261577933232_1_alg».proof.Proof.Gen.KernelIdeal
import proofs.«161003_j88261577933232_1_alg».proof.Proof.Gen.KernelIdeal.Frame
import proofs.«161003_j88261577933232_1_alg».proof.Proof.Gen.ReferenceIdeal
import proofs.«161003_j88261577933232_1_alg».proof.Proof.Gen.Pre_finite_inputs
import proofs.«161003_j88261577933232_1_alg».proof.Proof.KRun
import proofs.«161003_j88261577933232_1_alg».proof.Proof.KValue
import proofs.«161003_j88261577933232_1_alg».proof.Proof.RefRead
import proofs.«161003_j88261577933232_1_alg».proof.Proof.RefValue
import proofs.«161003_j88261577933232_1_alg».proof.Proof.PreDecode

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both runs end with the result buffer at `Spec.result` of the (agreeing) arguments: the kernel program by its
    run with the result read and the value of its last boundary, the reference by its run and its stages read at an
    index; the precondition gives every bin in range on the kernel's memory, hence on the reference's. -/
theorem algebraic : Cert.algebraic_KernelIdeal_ReferenceIdeal := by
  intro m ρ m' ρ' hpre hagree
  have hr : ∀ c : Dev Cert.KernelIdeal.nD, ∀ i,
      Cert.Spec.InRange (Cert.Spec.binW
        (m ((c.tc : Thread Cert.KernelIdeal.nD Cert.KernelIdeal.τ).loc Cert.KernelIdeal.main_arg0) i)
        (m ((c.tc : Thread Cert.KernelIdeal.nD Cert.KernelIdeal.τ).loc Cert.KernelIdeal.main_arg1) i)) :=
    fun c => Cert.PreDecode.bins_inRange _ _ _ (hpre c)
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.kernel_value m ρ c _ _ _ rfl rfl rfl (hr c)), (h c).2⟩)
      (Cert.KernelIdeal.KRun.run_value m ρ)
  · refine (θ_run Cert.ReferenceIdeal.defs _ _).mono (fun r h c => ⟨(h c).1.trans ?_, (h c).2⟩)
      (Cert.ReferenceIdeal.RunP.run (F := Ideal) m' ρ')
    rw [(hagree c).1, (hagree c).2.1, (hagree c).2.2]
    exact (Cert.ReferenceIdeal.ReadP.val_main_v41_eq _ _ _).trans
      (Cert.ReferenceIdeal.RefValue.ref_value _ _ _ (hr c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
